-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x1024 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S8x2048x1024, .f32⟩
  | .hbm, ⟨7, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x2048x1024, .f32⟩
  | .local _ .vmem, ⟨9, _⟩ => ⟨S1x2048x1024, .f32⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x2048x1024_S16384x1024 : S8x2048x1024.ShapeCasts S16384x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x1024 : S1x512x1.Broadcasts S1x512x1024
  dot_S1024x1024_S1024x1024_S1024x1024_1_0_0_1_n_n_wf : DotDims.WF S1024x1024 S1024x1024 S1024x1024 [1] [0] [0] [1] [] []
  dot_S1x512x1024_S1x2048x1024_S1x512x2048_2_2_1_1_0_0_wf : DotDims.WF S1x512x1024 S1x2048x1024 S1x512x2048 [2] [2] [1] [1] [0] [0]
  dot_S1x512x2048_S1x2048x1024_S1x512x1024_2_1_1_2_0_0_wf : DotDims.WF S1x512x2048 S1x2048x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .f32 = 32 ∨ (Rect.block (s := S8x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .f32 = 32 ∨ (Rect.block (s := S8x2048x1024) S1x2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .f32 = 32 ∨ (Rect.block (s := S8x2048x1024) S1x512x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x512x1024_S1x2048x1024_S1x512x2048_2_2_1_1_0_0 : DotDims S1x512x1024 S1x2048x1024 S1x512x2048 where
  lhsContracting := [2]
  rhsContracting := [2]
  lhsNonContracting := [1]
  rhsNonContracting := [1]
  lhsBatch := [0]
  rhsBatch := [0]
  wf := dot_S1x512x1024_S1x2048x1024_S1x512x2048_2_2_1_1_0_0_wf
def dot_S1x512x2048_S1x2048x1024_S1x512x1024_2_1_1_2_0_0 : DotDims S1x512x2048 S1x2048x1024 S1x512x1024 where
  lhsContracting := [2]
  rhsContracting := [1]
  lhsNonContracting := [1]
  rhsNonContracting := [2]
  lhsBatch := [0]
  rhsBatch := [0]
  wf := dot_S1x512x2048_S1x2048x1024_S1x512x1024_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1x1x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KRegion0.lean ====
/-
  The projection call, point by point, at given entry contents `V` of the buffers.

  The grid has 16 points; point t stages rows 1024·t … 1024·t + 1023 of the [16384, 1024] array of x, the whole
  of W and the whole [1, 1024] bias row (the last two staged once, their block index never moves), and writes
  back rows 1024·t … of the result.  The body loads the three staged blocks, computes block·W + bias, and
  overwrites the whole output buffer with it: so after the body the output buffer is ONE function of the three
  input blocks (`out0_3`), whatever it held before, and the inputs' buffers are as found.
-/
import proofs.«430863_j16389595201615_3_alg».proof.Proof.Gen.Kernel.Launch
import proofs.«430863_j16389595201615_3_alg».proof.Proof.Gen.Kernel.Skeleton
import proofs.«430863_j16389595201615_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0

/-! ## What the body leaves in the output window's buffer -/

/-- The output buffer after the body, from the three input blocks: its one store, of block·W + bias, laid over
    whatever was there. -/
def out0_3 (x0 : Vec F S1024x1024 .f32) (x1 : Vec F S1024x1024 .f32) (x2 : Vec F S1x1024 .f32) : Vec F S1024x1024 .f32 :=
  View.canon [⟨r0_0, k0_pay1 (View.ld x0 r0_0) (View.ld x1 r0_0) (View.ld x2 r0_1)⟩]

/-- The one store covers the buffer. -/
theorem cover0_3 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The body on whole staging memrefs, the inputs' at read contents `x0 x1 x2` and the output's at anything, runs to the
    continuation holding the inputs' as they were and the output's at `out0_3` of them. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the projection call on core `c`: the arrays as the region finds them; after the body at point
    `t` each input's buffer at its block and the output's at `out0_3` of the input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.KRegion1.lean ====
/-
  The attention call, point by point, at given entry contents `V` of the buffers.

  The grid has 8 × 4 points; point (b, j) stages query rows 512·j … 512·j + 511 of batch b, ALL 2048 rows of batch b as
  keys (staged once per batch: over the four j the block index does not move), and writes back result rows 512·j … of
  batch b.  Queries and keys are two windows onto ONE array, both read-only, so the array is held half by each window.
  The body loads the two staged blocks, computes the attention rows, and overwrites the whole output buffer: after the
  body the output buffer is ONE function of the two input blocks (`out1_2`), and the inputs' buffers are as found.
-/
import proofs.«430863_j16389595201615_3_alg».proof.Proof.Gen.Kernel.Launch
import proofs.«430863_j16389595201615_3_alg».proof.Proof.Gen.Kernel.Skeleton
import proofs.«430863_j16389595201615_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: every statement below is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S1x512x1024 := Rect.unit (s := S1x512x1024) ![0, 0, 0] S1x512x1024.size inb_S1x512x1024_S1x512x1024_0_0_0
abbrev r1_1 : Rect S1x2048x1024 := Rect.unit (s := S1x2048x1024) ![0, 0, 0] S1x2048x1024.size inb_S1x2048x1024_S1x2048x1024_0_0_0

/-! ## What the body leaves in the output window's buffer -/

/-- The output buffer after the body, from the two input blocks: its one store, of the attention rows, laid over
    whatever was there. -/
def out1_2 (x0 : Vec F S1x512x1024 .f32) (x1 : Vec F S1x2048x1024 .f32) : Vec F S1x512x1024 .f32 :=
  View.canon [⟨r1_0, k1_pay1 (View.ld x0 r1_0) (View.ld x1 r1_1)⟩]

/-- The one store covers the buffer. -/
theorem cover1_2 (p0 : Vec F S1x512x1024 .f32) (y : S1x512x1024.Idx) :
    ∃ pc ∈ ([⟨r1_0, p0⟩] : List (View.Piece (Elt F) S1x512x1024 .f32)), y ∈ pc.1.set :=
  View.cover_of_tiled [⟨r1_0, p0⟩] S1x512x1024.size (by rfl) y

/-! ## The body's triple -/

set_option maxHeartbeats 1000000 in
/-- The body on whole staging memrefs, the inputs' at read contents `x0 x1` and the output's at anything, runs to the
    continuation holding the inputs' as they were and the output's at `out1_2` of them. -/
theorem sound_kernel1 (c : Dev nD) (E : Set ℕ) (i : grid1.Coords) (arg2 : Memref sig .tc .vmem S1x512x1024 .f32) (harg2 : arg2.IsWhole) (arg3 : Memref sig .tc .vmem S1x2048x1024 .f32) (harg3 : arg3.IsWhole) (arg4 : Memref sig .tc .vmem S1x512x1024 .f32) (harg4 : arg4.IsWhole)
    (x0 : Vec F S1x512x1024 .f32) (x1 : Vec F S1x2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the attention call on core `c`: the arrays as the region finds them; after the body at point
    `t` each input's buffer at its block and the output's at `out1_2` of the input blocks; the invariant is the
    untouched rest; nothing owed; the array the two input windows share held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The shares: the two input windows hold the halves of their common array, the output window all of its own. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.KRun.lean ====
/-
  The whole run of the program: two host reshapes, the projection call, one host reshape, the attention call.

  Between the five items the core's unscoped buffers are tracked as ONE valuation: the launch memory, then the host
  operations applied, then the projection's result array replaced by what its 16 write-backs leave, then the next
  host operation applied, then the attention's result array replaced by what its 32 write-backs leave.  Every weakly
  fair execution terminates and ends with every unscoped buffer at that last valuation: in particular the three
  arguments as launched (nothing writes them) and the result at the attention call's final array.

  The attention call reads ONE array through two windows.  At its entry the array's buffer is split into its two half
  shares, one per window; at its exit the halves, still at the entry contents (neither window writes), are joined again.
-/
import proofs.«430863_j16389595201615_3_alg».proof.Proof.KRegion0
import proofs.«430863_j16389595201615_3_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the two reshapes (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the third reshape (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit: its result array at what the pipeline leaves, every other buffer as entered (its two
    input windows read one array and write nothing). -/
def W4 (c : Dev nD) : Valuation τ sig (Elt F) :=
  Function.update (W3 m ρ c) (Proc.devRef .tc main_v4) ((dat1 (V3 m ρ) c).arrAt 2 cfg1.N)
abbrev V4 : (c : Dev nD) → (b : Ref sig .tc) → Buf (Elt F) ((c : Thread nD τ).loc b) := fun c b => W4 m ρ c b
theorem W4_main_v4 (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) _ _

/-! ## The attention call's arrays: one buffer behind two windows -/

section Shared

variable (V : (c : Dev nD) → (b : Ref sig .tc) → Buf (Elt F) ((c : Thread nD τ).loc b))

/-- The buffers behind the attention call's arrays (the projected rows and the result), each whole at the full share at
    contents `Vv`, make its three windows' arrays at those contents: the shared buffer split into its halves. -/
theorem arrays1_of_bufs (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    (Pipeline.arrBufs (Ix := Unit) (Name := ℕ) (U := UR sig nD τ) (Lvl := ℕ) spec1 c Vv : sProp 𝕄) ⊢ (dat1 V c).arrays G := by
  unfold Pipeline.arrBufs Dat.arrays
  rw [bigSep_eq_bigSepL_of_eq [main_v3, main_v4] (by decide) (by decide), bigSep_W1]
  rw [(arr_whole1 0).set_eq_univ, (arr_whole1 2).set_eq_univ, hG 0, hG 1, hG 2, share1_0, share1_1, share1_2]
  show iprop((((c : Thread nD τ).loc main_v3) ↦{fullShare} Vv main_v3) ∗ (((c : Thread nD τ).loc main_v4) ↦{fullShare} Vv main_v4))
    ⊢ (iprop((((c : Thread nD τ).loc main_v3) ↦{fullShare.left} Vv main_v3) ∗ (((c : Thread nD τ).loc main_v3) ↦{fullShare.right} Vv main_v3)
        ∗ (((c : Thread nD τ).loc main_v4) ↦{fullShare} Vv main_v4)) : sProp 𝕄)
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- And back: the three windows' arrays, the two halves of the shared buffer at one contents, are the buffers behind them
    whole. -/
theorem bufs_of_arrays1 (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    (dat1 V c).arrays G ⊢ (Pipeline.arrBufs (Ix := Unit) (Name := ℕ) (U := UR sig nD τ) (Lvl := ℕ) spec1 c Vv : sProp 𝕄) := by
  unfold Pipeline.arrBufs Dat.arrays
  rw [bigSep_eq_bigSepL_of_eq [main_v3, main_v4] (by decide) (by decide), bigSep_W1]
  rw [(arr_whole1 0).set_eq_univ, (arr_whole1 2).set_eq_univ, hG 0, hG 1, hG 2, share1_0, share1_1, share1_2]
  show (iprop((((c : Thread nD τ).loc main_v3) ↦{fullShare.left} Vv main_v3) ∗ (((c : Thread nD τ).loc main_v3) ↦{fullShare.right} Vv main_v3)
        ∗ (((c : Thread nD τ).loc main_v4) ↦{fullShare} Vv main_v4)) : sProp 𝕄)
    ⊢ iprop((((c : Thread nD τ).loc main_v3) ↦{fullShare} Vv main_v3) ∗ (((c : Thread nD τ).loc main_v4) ↦{fullShare} Vv main_v4))
  iintro ⟨Hl, Hr, H4⟩
  isplitl [Hl Hr]
  · iapply (pointsTo_share (PosShare.mem_left_op_right fullShare)).2
    isplitl [Hl]; · iexact Hl
    iexact Hr
  iexact H4

end Shared

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W4 m ρ c) ∗ ∃ r, prngReg c r)

/-! ## The calls as items -/

set_option backward.isDefEq.respectTransparency.types false in
/-- The projection call over the thread state: entered from every unscoped buffer at `W1`, left at `W2`.  Its arrays are
    split out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call's arrays in and out of the unscoped buffers -/

/-- At the attention call's exit each of its arrays holds what the last valuation says: the shared input array its entry
    contents (no window writes it), the result array what the write-backs leave. -/
theorem hF1 (c : Dev nD) : ∀ w : Fin cfg1.W, (dat1 (V3 m ρ) c).arrAt w cfg1.N = V4 m ρ c (Pipeline.arrRef spec1 w)
  | ⟨0, _⟩ => ((dat1 (V3 m ρ) c).arrAt_in 0 rfl _).trans ((A_eq1 (V3 m ρ) c 0).trans (W4_of_ne m ρ c main_v3 (by decide)).symm)
  | ⟨1, _⟩ => ((dat1 (V3 m ρ) c).arrAt_in 1 rfl _).trans ((A_eq1 (V3 m ρ) c 1).trans (W4_of_ne m ρ c main_v3 (by decide)).symm)
  | ⟨2, _⟩ => (W4_main_v4 m ρ c).symm
/-- Every other buffer is as the call found it. -/
theorem hrest1 (c : Dev nD) : ∀ b, b ∉ Finset.univ.image (Pipeline.arrRef spec1) → V4 m ρ c b = V3 m ρ c b :=
  fun b hb => W4_of_ne m ρ c b fun e => hb (Finset.mem_image.mpr ⟨2, Finset.mem_univ _, e.symm⟩)

/-- ENTRY: every unscoped buffer at the entry valuation is the call's arrays at their entry contents and the rest. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  have hub := Pipeline.unscopedBufs_split₀ (Ix := Unit) (Name := ℕ) (U := UR sig nD τ) (Lvl := ℕ) (Val := Elt F) (nD := nD) (τ := τ)
    cfgs 1 winFacts₀1.arr_unscoped c (V3 m ρ c)
  rw [Pipeline.unscopedBufs_held] at hub
  rw [hub]
  exact sep_mono (arrays1_of_bufs (V3 m ρ) c (V3 m ρ c) _ fun _ => rfl) .rfl

/-- EXIT: the call's arrays at their final contents and the rest are every unscoped buffer at the exit valuation. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have hub := Pipeline.unscopedBufs_split₀ (Ix := Unit) (Name := ℕ) (U := UR sig nD τ) (Lvl := ℕ) (Val := Elt F) (nD := nD) (τ := τ)
    cfgs 1 winFacts₀1.arr_unscoped c (V4 m ρ c)
  rw [Pipeline.unscopedBufs_held] at hub
  rw [hub]
  refine sep_mono (bufs_of_arrays1 (V3 m ρ) c (V4 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
/-- The attention call over the thread state: entered from every unscoped buffer at `W3`, left at `W4`.  Its arrays are
    split out of the unscoped buffers, the shared one by halves, and put back at the exit contents; the generator register
    goes into the invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := exit1 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The five items in order (the return apart): a host item per stretch from its boundary's contents, an item per call. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- The program IS the run of the items. -/
theorem main_run (c : Dev nD) : main (F := F) c = Pipeline.Seg.run (segs m ρ) := (main_chain c).trans (by chain_rfl)

set_option backward.isDefEq.respectTransparency.types false in
/-- THE RUN.  From any memory with zero counters, every weakly fair execution of the program terminates, nothing faulting,
    and every final state holds every unscoped buffer of every core at the last boundary's valuation `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Rgn

end
-- ==== Proof.KHost.lean ====
/-
  What the host operations and the two calls leave where, read off the boundary valuations of the run.

  No item writes an argument, so each argument's buffer is as launched at the end.  The first two host operations lay
  x out as [16384, 1024] and the bias as [1, 1024]; the third lays the projection's result out as [8, 2048, 1024].
-/
import proofs.«430863_j16389595201615_3_alg».proof.Proof.KRun
import proofs.«430863_j16389595201615_3_alg».proof.Proof.Gen.Kernel.Regions

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## What each host stretch leaves unchanged -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-! ## The arguments end as launched -/

theorem W4_main_arg0 (c : Dev nD) : W4 m ρ c main_arg0 = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c main_arg1 = m ((c : Thread nD τ).loc main_arg1) :=
  (W4_of_ne m ρ c main_arg1 (by decide)).trans <| (W3_of m ρ c main_arg1 (by decide)).trans <|
    ((W2_arr m ρ c 1).trans (((dat0 (V1 m ρ) c).arrAt_in 1 rfl _).trans (A_eq0 (V1 m ρ) c 1))).trans <| (W1_of m ρ c main_arg1 (by decide)).trans rfl
theorem W4_main_arg2 (c : Dev nD) : W4 m ρ c main_arg2 = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-! ## What the calls find and leave -/

/-- The projection call finds x laid out as [16384, 1024], -/
theorem V1_main_v0 (c : Dev nD) :
    (V1 m ρ c main_v0 : Vec F S16384x1024 .f32) = shapeCast S16384x1024 (m ((c : Thread nD τ).loc main_arg0)) shapeCasts_S8x2048x1024_S16384x1024 := by
  dsimp only [V1, W1, hostOps0]; after_results; rfl
/-- the bias laid out as [1, 1024], -/
theorem V1_main_v1 (c : Dev nD) :
    (V1 m ρ c main_v1 : Vec F S1x1024 .f32) = shapeCast S1x1024 (m ((c : Thread nD τ).loc main_arg2)) shapeCasts_S1024_S1x1024 := by
  dsimp only [V1, W1, hostOps0]; after_results; rfl
/-- and W as launched. -/
theorem V1_main_arg1 (c : Dev nD) : V1 m ρ c main_arg1 = m ((c : Thread nD τ).loc main_arg1) :=
  (W1_of m ρ c main_arg1 (by decide)).trans rfl
/-- The attention call finds the projection's final array laid out as [8, 2048, 1024]. -/
theorem V3_main_v3 (c : Dev nD) :
    (V3 m ρ c main_v3 : Vec F S8x2048x1024 .f32)
      = shapeCast S8x2048x1024 ((dat0 (V1 m ρ) c).arrAt 3 cfg0.N : Vec F S16384x1024 .f32) shapeCasts_S16384x1024_S8x2048x1024 := by
  rw [← W2_arr m ρ c 3]
  dsimp only [V3, W3, hostOps1]; after_results; rfl
/-- The result buffer ends at the attention call's final array. -/
theorem V4_main_v4 (c : Dev nD) : V4 m ρ c main_v4 = (dat1 (V3 m ρ) c).arrAt 2 cfg1.N := W4_main_v4 m ρ c

end Cert.Kernel.Rgn

end
-- ==== Proof.KIRegion0.lean ====
/-
  The projection call, point by point, at given entry contents `V` of the buffers.

  The grid has 16 points; point t stages rows 1024·t … 1024·t + 1023 of the [16384, 1024] array of x, the whole
  of W and the whole [1, 1024] bias row (the last two staged once, their block index never moves), and writes
  back rows 1024·t … of the result.  The body loads the three staged blocks, computes block·W + bias, and
  overwrites the whole output buffer with it: so after the body the output buffer is ONE function of the three
  input blocks (`out0_3`), whatever it held before, and the inputs' buffers are as found.
-/
import proofs.«430863_j16389595201615_3_alg».proof.Proof.Gen.KernelIdeal.Launch
import proofs.«430863_j16389595201615_3_alg».proof.Proof.Gen.KernelIdeal.Skeleton
import proofs.«430863_j16389595201615_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0

/-! ## What the body leaves in the output window's buffer -/

/-- The output buffer after the body, from the three input blocks: its one store, of block·W + bias, laid over
    whatever was there. -/
def out0_3 (x0 : Vec F S1024x1024 .f32) (x1 : Vec F S1024x1024 .f32) (x2 : Vec F S1x1024 .f32) : Vec F S1024x1024 .f32 :=
  View.canon [⟨r0_0, k0_pay1 (View.ld x0 r0_0) (View.ld x1 r0_0) (View.ld x2 r0_1)⟩]

/-- The one store covers the buffer. -/
theorem cover0_3 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The body on whole staging memrefs, the inputs' at read contents `x0 x1 x2` and the output's at anything, runs to the
    continuation holding the inputs' as they were and the output's at `out0_3` of them. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the projection call on core `c`: the arrays as the region finds them; after the body at point
    `t` each input's buffer at its block and the output's at `out0_3` of the input blocks; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.KIRegion1.lean ====
/-
  The attention call, point by point, at given entry contents `V` of the buffers.

  The grid has 8 × 4 points; point (b, j) stages query rows 512·j … 512·j + 511 of batch b, ALL 2048 rows of batch b as
  keys (staged once per batch: over the four j the block index does not move), and writes back result rows 512·j … of
  batch b.  Queries and keys are two windows onto ONE array, both read-only, so the array is held half by each window.
  The body loads the two staged blocks, computes the attention rows, and overwrites the whole output buffer: after the
  body the output buffer is ONE function of the two input blocks (`out1_2`), and the inputs' buffers are as found.
-/
import proofs.«430863_j16389595201615_3_alg».proof.Proof.Gen.KernelIdeal.Launch
import proofs.«430863_j16389595201615_3_alg».proof.Proof.Gen.KernelIdeal.Skeleton
import proofs.«430863_j16389595201615_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: every statement below is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S1x512x1024 := Rect.unit (s := S1x512x1024) ![0, 0, 0] S1x512x1024.size inb_S1x512x1024_S1x512x1024_0_0_0
abbrev r1_1 : Rect S1x2048x1024 := Rect.unit (s := S1x2048x1024) ![0, 0, 0] S1x2048x1024.size inb_S1x2048x1024_S1x2048x1024_0_0_0

/-! ## What the body leaves in the output window's buffer -/

/-- The output buffer after the body, from the two input blocks: its one store, of the attention rows, laid over
    whatever was there. -/
def out1_2 (x0 : Vec F S1x512x1024 .f32) (x1 : Vec F S1x2048x1024 .f32) : Vec F S1x512x1024 .f32 :=
  View.canon [⟨r1_0, k1_pay1 (View.ld x0 r1_0) (View.ld x1 r1_1)⟩]

/-- The one store covers the buffer. -/
theorem cover1_2 (p0 : Vec F S1x512x1024 .f32) (y : S1x512x1024.Idx) :
    ∃ pc ∈ ([⟨r1_0, p0⟩] : List (View.Piece (Elt F) S1x512x1024 .f32)), y ∈ pc.1.set :=
  View.cover_of_tiled [⟨r1_0, p0⟩] S1x512x1024.size (by rfl) y

/-! ## The body's triple -/

set_option maxHeartbeats 1000000 in
/-- The body on whole staging memrefs, the inputs' at read contents `x0 x1` and the output's at anything, runs to the
    continuation holding the inputs' as they were and the output's at `out1_2` of them. -/
theorem sound_kernel1 (c : Dev nD) (E : Set ℕ) (i : grid1.Coords) (arg2 : Memref sig .tc .vmem S1x512x1024 .f32) (harg2 : arg2.IsWhole) (arg3 : Memref sig .tc .vmem S1x2048x1024 .f32) (harg3 : arg3.IsWhole) (arg4 : Memref sig .tc .vmem S1x512x1024 .f32) (harg4 : arg4.IsWhole)
    (x0 : Vec F S1x512x1024 .f32) (x1 : Vec F S1x2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the attention call on core `c`: the arrays as the region finds them; after the body at point
    `t` each input's buffer at its block and the output's at `out1_2` of the input blocks; the invariant is the
    untouched rest; nothing owed; the array the two input windows share held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The shares: the two input windows hold the halves of their common array, the output window all of its own. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.KIRun.lean ====
/-
  The whole run of the program: two host reshapes, the projection call, one host reshape, the attention call.

  Between the five items the core's unscoped buffers are tracked as ONE valuation: the launch memory, then the host
  operations applied, then the projection's result array replaced by what its 16 write-backs leave, then the next
  host operation applied, then the attention's result array replaced by what its 32 write-backs leave.  Every weakly
  fair execution terminates and ends with every unscoped buffer at that last valuation: in particular the three
  arguments as launched (nothing writes them) and the result at the attention call's final array.

  The attention call reads ONE array through two windows.  At its entry the array's buffer is split into its two half
  shares, one per window; at its exit the halves, still at the entry contents (neither window writes), are joined again.
-/
import proofs.«430863_j16389595201615_3_alg».proof.Proof.KIRegion0
import proofs.«430863_j16389595201615_3_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the two reshapes (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the third reshape (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit: its result array at what the pipeline leaves, every other buffer as entered (its two
    input windows read one array and write nothing). -/
def W4 (c : Dev nD) : Valuation τ sig (Elt F) :=
  Function.update (W3 m ρ c) (Proc.devRef .tc main_v4) ((dat1 (V3 m ρ) c).arrAt 2 cfg1.N)
abbrev V4 : (c : Dev nD) → (b : Ref sig .tc) → Buf (Elt F) ((c : Thread nD τ).loc b) := fun c b => W4 m ρ c b
theorem W4_main_v4 (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) _ _

/-! ## The attention call's arrays: one buffer behind two windows -/

section Shared

variable (V : (c : Dev nD) → (b : Ref sig .tc) → Buf (Elt F) ((c : Thread nD τ).loc b))

/-- The buffers behind the attention call's arrays (the projected rows and the result), each whole at the full share at
    contents `Vv`, make its three windows' arrays at those contents: the shared buffer split into its halves. -/
theorem arrays1_of_bufs (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    (Pipeline.arrBufs (Ix := Unit) (Name := ℕ) (U := UR sig nD τ) (Lvl := ℕ) spec1 c Vv : sProp 𝕄) ⊢ (dat1 V c).arrays G := by
  unfold Pipeline.arrBufs Dat.arrays
  rw [bigSep_eq_bigSepL_of_eq [main_v3, main_v4] (by decide) (by decide), bigSep_W1]
  rw [(arr_whole1 0).set_eq_univ, (arr_whole1 2).set_eq_univ, hG 0, hG 1, hG 2, share1_0, share1_1, share1_2]
  show iprop((((c : Thread nD τ).loc main_v3) ↦{fullShare} Vv main_v3) ∗ (((c : Thread nD τ).loc main_v4) ↦{fullShare} Vv main_v4))
    ⊢ (iprop((((c : Thread nD τ).loc main_v3) ↦{fullShare.left} Vv main_v3) ∗ (((c : Thread nD τ).loc main_v3) ↦{fullShare.right} Vv main_v3)
        ∗ (((c : Thread nD τ).loc main_v4) ↦{fullShare} Vv main_v4)) : sProp 𝕄)
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- And back: the three windows' arrays, the two halves of the shared buffer at one contents, are the buffers behind them
    whole. -/
theorem bufs_of_arrays1 (c : Dev nD) (Vv : (b : Ref sig .tc) → Buf (Elt F) ((c : Thread nD τ).loc b))
    (G : (w : Fin cfg1.W) → Buf (Elt F) ((cfg1.win w).arr.view.loc (c : Thread nD τ)))
    (hG : ∀ w, G w = Vv (Pipeline.arrRef spec1 w)) :
    (dat1 V c).arrays G ⊢ (Pipeline.arrBufs (Ix := Unit) (Name := ℕ) (U := UR sig nD τ) (Lvl := ℕ) spec1 c Vv : sProp 𝕄) := by
  unfold Pipeline.arrBufs Dat.arrays
  rw [bigSep_eq_bigSepL_of_eq [main_v3, main_v4] (by decide) (by decide), bigSep_W1]
  rw [(arr_whole1 0).set_eq_univ, (arr_whole1 2).set_eq_univ, hG 0, hG 1, hG 2, share1_0, share1_1, share1_2]
  show (iprop((((c : Thread nD τ).loc main_v3) ↦{fullShare.left} Vv main_v3) ∗ (((c : Thread nD τ).loc main_v3) ↦{fullShare.right} Vv main_v3)
        ∗ (((c : Thread nD τ).loc main_v4) ↦{fullShare} Vv main_v4)) : sProp 𝕄)
    ⊢ iprop((((c : Thread nD τ).loc main_v3) ↦{fullShare} Vv main_v3) ∗ (((c : Thread nD τ).loc main_v4) ↦{fullShare} Vv main_v4))
  iintro ⟨Hl, Hr, H4⟩
  isplitl [Hl Hr]
  · iapply (pointsTo_share (PosShare.mem_left_op_right fullShare)).2
    isplitl [Hl]; · iexact Hl
    iexact Hr
  iexact H4

end Shared

/-! ## The proof data family and the thread state -/

/-- The prefetched tables' admissible contents: no pipeline has a table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W4 m ρ c) ∗ ∃ r, prngReg c r)

/-! ## The calls as items -/

set_option backward.isDefEq.respectTransparency.types false in
/-- The projection call over the thread state: entered from every unscoped buffer at `W1`, left at `W2`.  Its arrays are
    split out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call's arrays in and out of the unscoped buffers -/

/-- At the attention call's exit each of its arrays holds what the last valuation says: the shared input array its entry
    contents (no window writes it), the result array what the write-backs leave. -/
theorem hF1 (c : Dev nD) : ∀ w : Fin cfg1.W, (dat1 (V3 m ρ) c).arrAt w cfg1.N = V4 m ρ c (Pipeline.arrRef spec1 w)
  | ⟨0, _⟩ => ((dat1 (V3 m ρ) c).arrAt_in 0 rfl _).trans ((A_eq1 (V3 m ρ) c 0).trans (W4_of_ne m ρ c main_v3 (by decide)).symm)
  | ⟨1, _⟩ => ((dat1 (V3 m ρ) c).arrAt_in 1 rfl _).trans ((A_eq1 (V3 m ρ) c 1).trans (W4_of_ne m ρ c main_v3 (by decide)).symm)
  | ⟨2, _⟩ => (W4_main_v4 m ρ c).symm
/-- Every other buffer is as the call found it. -/
theorem hrest1 (c : Dev nD) : ∀ b, b ∉ Finset.univ.image (Pipeline.arrRef spec1) → V4 m ρ c b = V3 m ρ c b :=
  fun b hb => W4_of_ne m ρ c b fun e => hb (Finset.mem_image.mpr ⟨2, Finset.mem_univ _, e.symm⟩)

/-- ENTRY: every unscoped buffer at the entry valuation is the call's arrays at their entry contents and the rest. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  have hub := Pipeline.unscopedBufs_split₀ (Ix := Unit) (Name := ℕ) (U := UR sig nD τ) (Lvl := ℕ) (Val := Elt F) (nD := nD) (τ := τ)
    cfgs 1 winFacts₀1.arr_unscoped c (V3 m ρ c)
  rw [Pipeline.unscopedBufs_held] at hub
  rw [hub]
  exact sep_mono (arrays1_of_bufs (V3 m ρ) c (V3 m ρ c) _ fun _ => rfl) .rfl

/-- EXIT: the call's arrays at their final contents and the rest are every unscoped buffer at the exit valuation. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have hub := Pipeline.unscopedBufs_split₀ (Ix := Unit) (Name := ℕ) (U := UR sig nD τ) (Lvl := ℕ) (Val := Elt F) (nD := nD) (τ := τ)
    cfgs 1 winFacts₀1.arr_unscoped c (V4 m ρ c)
  rw [Pipeline.unscopedBufs_held] at hub
  rw [hub]
  refine sep_mono (bufs_of_arrays1 (V3 m ρ) c (V4 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
/-- The attention call over the thread state: entered from every unscoped buffer at `W3`, left at `W4`.  Its arrays are
    split out of the unscoped buffers, the shared one by halves, and put back at the exit contents; the generator register
    goes into the invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := exit1 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The five items in order (the return apart): a host item per stretch from its boundary's contents, an item per call. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- The program IS the run of the items. -/
theorem main_run (c : Dev nD) : main (F := F) c = Pipeline.Seg.run (segs m ρ) := (main_chain c).trans (by chain_rfl)

set_option backward.isDefEq.respectTransparency.types false in
/-- THE RUN.  From any memory with zero counters, every weakly fair execution of the program terminates, nothing faulting,
    and every final state holds every unscoped buffer of every core at the last boundary's valuation `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Rgn

end
-- ==== Proof.KIHost.lean ====
/-
  What the host operations and the two calls leave where, read off the boundary valuations of the run.

  No item writes an argument, so each argument's buffer is as launched at the end.  The first two host operations lay
  x out as [16384, 1024] and the bias as [1, 1024]; the third lays the projection's result out as [8, 2048, 1024].
-/
import proofs.«430863_j16389595201615_3_alg».proof.Proof.KIRun
import proofs.«430863_j16389595201615_3_alg».proof.Proof.Gen.KernelIdeal.Regions

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## What each host stretch leaves unchanged -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-! ## The arguments end as launched -/

theorem W4_main_arg0 (c : Dev nD) : W4 m ρ c main_arg0 = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c main_arg1 = m ((c : Thread nD τ).loc main_arg1) :=
  (W4_of_ne m ρ c main_arg1 (by decide)).trans <| (W3_of m ρ c main_arg1 (by decide)).trans <|
    ((W2_arr m ρ c 1).trans (((dat0 (V1 m ρ) c).arrAt_in 1 rfl _).trans (A_eq0 (V1 m ρ) c 1))).trans <| (W1_of m ρ c main_arg1 (by decide)).trans rfl
theorem W4_main_arg2 (c : Dev nD) : W4 m ρ c main_arg2 = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-! ## What the calls find and leave -/

/-- The projection call finds x laid out as [16384, 1024], -/
theorem V1_main_v0 (c : Dev nD) :
    (V1 m ρ c main_v0 : Vec F S16384x1024 .f32) = shapeCast S16384x1024 (m ((c : Thread nD τ).loc main_arg0)) shapeCasts_S8x2048x1024_S16384x1024 := by
  dsimp only [V1, W1, hostOps0]; after_results; rfl
/-- the bias laid out as [1, 1024], -/
theorem V1_main_v1 (c : Dev nD) :
    (V1 m ρ c main_v1 : Vec F S1x1024 .f32) = shapeCast S1x1024 (m ((c : Thread nD τ).loc main_arg2)) shapeCasts_S1024_S1x1024 := by
  dsimp only [V1, W1, hostOps0]; after_results; rfl
/-- and W as launched. -/
theorem V1_main_arg1 (c : Dev nD) : V1 m ρ c main_arg1 = m ((c : Thread nD τ).loc main_arg1) :=
  (W1_of m ρ c main_arg1 (by decide)).trans rfl
/-- The attention call finds the projection's final array laid out as [8, 2048, 1024]. -/
theorem V3_main_v3 (c : Dev nD) :
    (V3 m ρ c main_v3 : Vec F S8x2048x1024 .f32)
      = shapeCast S8x2048x1024 ((dat0 (V1 m ρ) c).arrAt 3 cfg0.N : Vec F S16384x1024 .f32) shapeCasts_S16384x1024_S8x2048x1024 := by
  rw [← W2_arr m ρ c 3]
  dsimp only [V3, W3, hostOps1]; after_results; rfl
/-- The result buffer ends at the attention call's final array. -/
theorem V4_main_v4 (c : Dev nD) : V4 m ρ c main_v4 = (dat1 (V3 m ρ) c).arrAt 2 cfg1.N := W4_main_v4 m ρ c

end Cert.KernelIdeal.Rgn

end
-- ==== Proof.KIValue0.lean ====
/-
  The projection call's result array after all 16 points, read at an entry.

  Point t writes rows 1024·t … 1024·t + 1023 of the result and nothing else; the 16 blocks tile the [16384, 1024]
  array.  So entry (1024·t + r, f) of the final array is entry (r, f) of what point t stored: the body's value on
  rows 1024·t … of x, the whole of W and the bias row.
-/
import proofs.«430863_j16389595201615_3_alg».proof.Proof.KIRegion0
import Idealize.ShloMosaic.Lib.Pipeline.Value
import Idealize.ShloMosaic.Lib.ValueIdx

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- Rows 1024·t … 1024·t + 1023 of a [16384, 1024] array, as a [1024, 1024] block. -/
def rows0 (x : Vec F S16384x1024 .f32) (t : Fin 16) : Vec F S1024x1024 .f32 :=
  fun y => x (ix2 (⟨t.val * 1024 + (y 0).val, by have := idx2_lt0 y; have := t.isLt; omega⟩ : Fin 16384) (⟨(y 1).val, idx2_lt1 y⟩ : Fin 1024))

/-! ## The index maps, decided over the grid -/

theorem hz0 : (![0, 0] : Fin 2 → Nat) = fun _ => 0 := funext fun a => by fin_cases a <;> rfl

/-- Block index of each window at point t: the x rows and the result rows move with t, W and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks at a point -/

/-- Window 0's block at point t is rows 1024·t … of x. -/
theorem iblk0_0_eq (c : Dev nD) (t : Fin cfg0.N) : (iblk0 V c 0 t : Vec F S1024x1024 .f32) = rows0 (V c main_v0) t := by
  obtain ⟨e0, e1, -⟩ := idx_facts0 t
  funext y
  show V c main_v0 (((cfg0.win 0).blk t).view.emb y) = V c main_v0 _
  refine congrArg (V c main_v0) (funext fun a => Fin.ext ?_)
  match a with
  | ⟨0, _⟩ => show win0_0.index t (0 : Fin 2) * 1024 + 1 * (y 0).val = t.val * 1024 + (y 0).val; omega
  | ⟨1, _⟩ => show win0_0.index t (1 : Fin 2) * 1024 + 1 * (y 1).val = (y 1).val; omega

/-- Window 1's block at every point is the whole of W. -/
theorem iblk0_1_eq (c : Dev nD) (t : Fin cfg0.N) : (iblk0 V c 1 t : Vec F S1024x1024 .f32) = V c main_arg1 := by
  obtain ⟨-, -, e0, e1, -⟩ := idx_facts0 t
  funext y
  show V c main_arg1 (((cfg0.win 1).blk t).view.emb y) = V c main_arg1 y
  refine congrArg (V c main_arg1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Window 2's block at every point is the whole bias row. -/
theorem iblk0_2_eq (c : Dev nD) (t : Fin cfg0.N) : (iblk0 V c 2 t : Vec F S1x1024 .f32) = V c main_v1 := by
  obtain ⟨-, -, -, -, e0, e1, -⟩ := idx_facts0 t
  funext y
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-! ## The whole result array as one function of the inputs -/

/-- The point whose block holds row i₀: i₀ / 1024. -/
def pointOf0 (i : S16384x1024.Idx) : Fin 16 := ⟨(i 0).val / 1024, by have := idx2_lt0 i; omega⟩

/-- The coordinates of an entry inside its block: (i₀ mod 1024, i₁). -/
def inBlock0 (i : S16384x1024.Idx) : S1024x1024.Idx :=
  ix2 (⟨(i 0).val % 1024, Nat.mod_lt _ (by decide)⟩ : Fin 1024) (⟨(i 1).val, idx2_lt1 i⟩ : Fin 1024)

/-- The projection's whole result: at each entry, the body's value on the row block of x that holds the entry's row,
    the whole of W and the bias row, at the entry's coordinates inside the block. -/
def proj0 (x : Vec F S16384x1024 .f32) (W : Vec F S1024x1024 .f32) (b : Vec F S1x1024 .f32) : Vec F S16384x1024 .f32 :=
  fun i => k0_pay1 (rows0 x (pointOf0 i)) W b (inBlock0 i)

/-- At an entry whose row is 1024·t + j₀ and whose column is j₁, it is the body's value on block t at (j₀, j₁). -/
theorem proj0_apply (x : Vec F S16384x1024 .f32) (W : Vec F S1024x1024 .f32) (b : Vec F S1x1024 .f32) (t : Fin 16)
    (j : S1024x1024.Idx) (i : S16384x1024.Idx) (h0 : (i 0).val = t.val * 1024 + (j 0).val) (h1 : (i 1).val = (j 1).val) :
    proj0 x W b i = k0_pay1 (rows0 x t) W b j := by
  have hj0 := idx2_lt0 j
  have ht : pointOf0 i = t := Fin.ext (by show (i 0).val / 1024 = t.val; omega)
  have hj : inBlock0 i = j := by
    funext a
    match a with
    | ⟨0, _⟩ => exact Fin.ext (by show (i 0).val % 1024 = (j 0).val; omega)
    | ⟨1, _⟩ => exact Fin.ext (by show (i 1).val = (j 1).val; omega)
  unfold proj0
  rw [ht, hj]

/-- The body's value depends only on its three blocks and the entry. -/
theorem pay0_congr {x0 x0' x1 x1' : Vec F S1024x1024 .f32} {x2 x2' : Vec F S1x1024 .f32} (h0 : x0 = x0') (h1 : x1 = x1')
    (h2 : x2 = x2') (j : S1024x1024.Idx) : k0_pay1 x0 x1 x2 j = k0_pay1 x0' x1' x2' j := by
  subst h0 h1 h2; rfl

/-! ## What each point writes back, and the cover -/

/-- Point t writes back block t of the whole result. -/
theorem flushed0_3_eq (c : Dev nD) (t : Fin cfg0.N) :
    (dat0 V c).flushed 3 t = ((cfg0.win 3).blk t).view.read (Elt F) (proj0 (V c main_v0) (V c main_arg1) (V c main_v1)) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1x1024) hz0]
  obtain ⟨-, -, -, -, -, -, e0, e1⟩ := idx_facts0 t
  funext j
  show k0_pay1 (iblk0 V c 0 t) (iblk0 V c 1 t) (iblk0 V c 2 t) j
    = proj0 (V c main_v0) (V c main_arg1) (V c main_v1) (((cfg0.win 3).blk t).view.emb j)
  refine (pay0_congr (iblk0_0_eq V c t) (iblk0_1_eq V c t) (iblk0_2_eq V c t) j).trans
    (proj0_apply (V c main_v0) (V c main_arg1) (V c main_v1) t j _ ?_ ?_).symm
  · show win0_3.index t (0 : Fin 2) * 1024 + 1 * (j 0).val = t.val * 1024 + (j 0).val; omega
  · show win0_3.index t (1 : Fin 2) * 1024 + 1 * (j 1).val = (j 1).val; omega

/-- An entry is in point t's block iff each coordinate is in the block's range on its axis. -/
theorem mem_blk0_3 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry is in the block of the point its row falls to: the 16 blocks tile the array. -/
theorem tiled0_3 (i : S16384x1024.Idx) : ∃ t : Fin cfg0.N, (cfg0.win 3).flush t = true ∧ i ∈ ((cfg0.win 3).blk t).view.set := by
  have hi0 := idx2_lt0 i
  have hi1 := idx2_lt1 i
  have hN : cfg0.N = 16 := rfl
  obtain ⟨t, ht⟩ : ∃ t : Fin cfg0.N, t.val = (i 0).val / 1024 := ⟨⟨(i 0).val / 1024, by rw [hN]; omega⟩, rfl⟩
  obtain ⟨-, -, -, -, -, -, e0, e1⟩ := idx_facts0 t
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after all 16 points is the whole result. -/
theorem final0 (c : Dev nD) : (dat0 V c).arrAt 3 cfg0.N = proj0 (V c main_v0) (V c main_arg1) (V c main_v1) :=
  (dat0 V c).arrAt_eq_of_cover 3 (proj0 (V c main_v0) (V c main_arg1) (V c main_v1)) (fun t _ => flushed0_3_eq V c t) tiled0_3

/-- Entry (1024·t + r, f) of the result array after the run is the body's value on the blocks of point t, at (r, f). -/
theorem final0_apply (c : Dev nD) (t : Fin 16) (r f : Fin 1024) :
    ((dat0 V c).arrAt 3 cfg0.N : Vec F S16384x1024 .f32) (ix2 (⟨t.val * 1024 + r.val, by have := t.isLt; have := r.isLt; omega⟩ : Fin 16384) f)
      = k0_pay1 (rows0 (V c main_v0) t) (V c main_arg1) (V c main_v1) (ix2 r f) := by
  rw [final0 V c]
  exact proj0_apply (V c main_v0) (V c main_arg1) (V c main_v1) t (ix2 r f) _ rfl rfl

end Cert.KernelIdeal.Rgn

end
-- ==== Proof.KIValue1.lean ====
/-
  The attention call's result array after all 32 points, read at an entry.

  Point (b, j) writes result rows 512·j … 512·j + 511 of batch b and nothing else; the 32 blocks tile the
  [8, 2048, 1024] array.  So entry (b, 512·j + r, d) of the final array is entry (0, r, d) of what point (b, j)
  stored: the body's value on query rows 512·j … of batch b and on all the rows of batch b as keys.
-/
import proofs.«430863_j16389595201615_3_alg».proof.Proof.KIRegion1
import Idealize.ShloMosaic.Lib.Pipeline.Value
import Idealize.ShloMosaic.Lib.ValueIdx

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- Rows 512·j … 512·j + 511 of batch b of a [8, 2048, 1024] array, as a [1, 512, 1024] block. -/
def qrows (q : Vec F S8x2048x1024 .f32) (b : Fin 8) (j : Fin 4) : Vec F S1x512x1024 .f32 :=
  fun y => q (ix3 b (⟨j.val * 512 + (y 1).val, by have h1 : (y 1).val < 512 := (y 1).isLt; have := j.isLt; omega⟩ : Fin 2048) (⟨(y 2).val, (y 2).isLt⟩ : Fin 1024))

/-- All the rows of batch b, as a [1, 2048, 1024] block. -/
def kvrows (q : Vec F S8x2048x1024 .f32) (b : Fin 8) : Vec F S1x2048x1024 .f32 :=
  fun y => q (ix3 b (⟨(y 1).val, (y 1).isLt⟩ : Fin 2048) (⟨(y 2).val, (y 2).isLt⟩ : Fin 1024))

/-- The grid's three printed index maps, decided once over the 32 points: at point t the query window and the result
    window sit at block (t / 4, t % 4, 0), the key window at block (t / 4, 0, 0). -/
theorem idx_facts1 : ∀ t : Fin cfg1.N,
    win1_2.index t (0 : Fin 3) = t.val / 4 ∧ win1_2.index t (1 : Fin 3) = t.val % 4 ∧ win1_2.index t (2 : Fin 3) = 0
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0 :=
  (by decide +kernel : ∀ t : Fin grid1.N, _)

/-- The grid has 32 points. -/
theorem N1_eq : cfg1.N = 32 := by decide

/-- The zero offsets of the body's whole-buffer accesses, as the constant function. -/
theorem hz3 : (![0, 0, 0] : Fin 3 → Nat) = fun _ => 0 := funext fun a => by fin_cases a <;> rfl

/-- The batch an entry of the [8, 2048, 1024] array lies in, -/
def batchOf (i : S8x2048x1024.Idx) : Fin 8 := ⟨(i 0).val, (i 0).isLt⟩
/-- the block of 512 rows its row lies in, -/
def rowBlockOf (i : S8x2048x1024.Idx) : Fin 4 := ⟨(i 1).val / 512, by have h : (i 1).val < 2048 := (i 1).isLt; omega⟩
/-- its row inside that block, -/
def rowInBlockOf (i : S8x2048x1024.Idx) : Fin 512 := ⟨(i 1).val % 512, Nat.mod_lt _ (by decide)⟩
/-- and its feature. -/
def featOf (i : S8x2048x1024.Idx) : Fin 1024 := ⟨(i 2).val, (i 2).isLt⟩

/-- The attention of the whole array, entry by entry: entry (b, s, d) is the body's value on query rows
    512·(s / 512) … of batch b and on all the rows of batch b as keys, at (0, s % 512, d). -/
def attnAll (q : Vec F S8x2048x1024 .f32) : Vec F S8x2048x1024 .f32 := fun i =>
  k1_pay1 (qrows q (batchOf i) (rowBlockOf i)) (kvrows q (batchOf i)) (ix3 (0 : Fin 1) (rowInBlockOf i) (featOf i))

/-- At the entry with coordinates (b, 512·j + y₁, y₂), the whole-array attention is the body's value on the blocks
    of point (b, j), at y. -/
theorem attnAll_at (q : Vec F S8x2048x1024 .f32) (b : Fin 8) (j : Fin 4) (i : S8x2048x1024.Idx) (y : S1x512x1024.Idx)
    (h0 : (i 0).val = b.val) (h1 : (i 1).val = j.val * 512 + (y 1).val) (h2 : (i 2).val = (y 2).val) :
    attnAll q i = k1_pay1 (qrows q b j) (kvrows q b) y := by
  have hy1 : (y 1).val < 512 := (y 1).isLt
  have hy0 : (y 0).val < 1 := (y 0).isLt
  have hb : batchOf i = b := Fin.ext h0
  have hj : rowBlockOf i = j := Fin.ext (by show (i 1).val / 512 = j.val; omega)
  have hy : ix3 (0 : Fin 1) (rowInBlockOf i) (featOf i) = y := by
    funext a
    match a with
    | ⟨0, _⟩ => exact Fin.ext (by show 0 = (y 0).val; omega)
    | ⟨1, _⟩ => exact Fin.ext (by show (i 1).val % 512 = (y 1).val; omega)
    | ⟨2, _⟩ => exact Fin.ext (by show (i 2).val = (y 2).val; exact h2)
  unfold attnAll
  rw [hb, hj, hy]

/-- The query window's block at point t = 4·b + j, read off an array, is rows 512·j … of batch b. -/
theorem read_qblock (q : Vec F S8x2048x1024 .f32) (t : Fin cfg1.N) (b : Fin 8) (j : Fin 4)
    (hb : b.val = t.val / 4) (hj : j.val = t.val % 4) :
    ((cfg1.win 0).blk t).view.read (Elt F) q = qrows q b j := by
  obtain ⟨-, -, -, e0, e1, e2, -, -, -⟩ := idx_facts1 t
  funext y
  show q (((cfg1.win 0).blk t).view.emb y) = q (ix3 b _ _)
  refine congrArg q ?_
  funext a; apply Fin.ext
  match a with
  | ⟨0, _⟩ => show win1_0.index t (0 : Fin 3) * 1 + 1 * (y 0).val = b.val; have : (y 0).val < 1 := (y 0).isLt; omega
  | ⟨1, _⟩ => show win1_0.index t (1 : Fin 3) * 512 + 1 * (y 1).val = j.val * 512 + (y 1).val; omega
  | ⟨2, _⟩ => show win1_0.index t (2 : Fin 3) * 1024 + 1 * (y 2).val = (y 2).val; omega

/-- The key window's block at point t = 4·b + j, read off an array, is all the rows of batch b. -/
theorem read_kvblock (q : Vec F S8x2048x1024 .f32) (t : Fin cfg1.N) (b : Fin 8)
    (hb : b.val = t.val / 4) :
    ((cfg1.win 1).blk t).view.read (Elt F) q = kvrows q b := by
  obtain ⟨-, -, -, -, -, -, e0, e1, e2⟩ := idx_facts1 t
  funext y
  show q (((cfg1.win 1).blk t).view.emb y) = q (ix3 b _ _)
  refine congrArg q ?_
  funext a; apply Fin.ext
  match a with
  | ⟨0, _⟩ => show win1_1.index t (0 : Fin 3) * 1 + 1 * (y 0).val = b.val; have : (y 0).val < 1 := (y 0).isLt; omega
  | ⟨1, _⟩ => show win1_1.index t (1 : Fin 3) * 2048 + 1 * (y 1).val = (y 1).val; omega
  | ⟨2, _⟩ => show win1_1.index t (2 : Fin 3) * 1024 + 1 * (y 2).val = (y 2).val; omega

/-- The query block the region stages at point t = 4·b + j. -/
theorem iblk1_0_eq (c : Dev nD) (t : Fin cfg1.N) (b : Fin 8) (j : Fin 4) (hb : b.val = t.val / 4) (hj : j.val = t.val % 4) :
    iblk1 V c 0 t = qrows (V c main_v3) b j :=
  read_qblock (V c main_v3) t b j hb hj

/-- The key block the region stages at point t = 4·b + j. -/
theorem iblk1_1_eq (c : Dev nD) (t : Fin cfg1.N) (b : Fin 8) (hb : b.val = t.val / 4) :
    iblk1 V c 1 t = kvrows (V c main_v3) b :=
  read_kvblock (V c main_v3) t b hb

/-- The body's value on two blocks that are the query rows of point (b, j) and the key rows of batch b, at y, is the
    whole-array attention at the entry y sits at. -/
theorem pay_eq_attnAll (q : Vec F S8x2048x1024 .f32) (x0 : Vec F S1x512x1024 .f32) (x1 : Vec F S1x2048x1024 .f32)
    (b : Fin 8) (j : Fin 4) (hx0 : x0 = qrows q b j) (hx1 : x1 = kvrows q b) (i : S8x2048x1024.Idx) (y : S1x512x1024.Idx)
    (h0 : (i 0).val = b.val) (h1 : (i 1).val = j.val * 512 + (y 1).val) (h2 : (i 2).val = (y 2).val) :
    k1_pay1 x0 x1 y = attnAll q i := by
  subst hx0 hx1
  exact (attnAll_at q b j i y h0 h1 h2).symm

/-- What point t writes back is block t of the whole-array attention of the array as the region finds it. -/
theorem flushed1_eq (c : Dev nD) (t : Fin cfg1.N) :
    (dat1 V c).flushed 2 t = ((cfg1.win 2).blk t).view.read (Elt F) (attnAll (V c main_v3)) := by
  show (cfg1.win 2).cut (grid1.coords t) ((dat1 V c).after 2 t) = _
  rw [after1_2]
  unfold out1_2
  rw [View.canon_unit_zero hz3]
  simp only [View.ld_unit_zero (S := S1x512x1024) hz3, View.ld_unit_zero (S := S1x2048x1024) hz3]
  obtain ⟨e0, e1, e2, -, -, -, -, -, -⟩ := idx_facts1 t
  have hN : t.val < 32 := N1_eq ▸ t.isLt
  funext y
  have hy0 : (y 0).val < 1 := (y 0).isLt
  refine pay_eq_attnAll (V c main_v3) _ _ ⟨t.val / 4, by omega⟩ ⟨t.val % 4, by omega⟩
    (iblk1_0_eq V c t _ _ rfl rfl) (iblk1_1_eq V c t _ rfl) _ y ?_ ?_ ?_
  · show win1_2.index t (0 : Fin 3) * 1 + 1 * (y 0).val = t.val / 4; omega
  · show win1_2.index t (1 : Fin 3) * 512 + 1 * (y 1).val = t.val % 4 * 512 + (y 1).val; omega
  · show win1_2.index t (2 : Fin 3) * 1024 + 1 * (y 2).val = (y 2).val; omega

/-- An entry of the result array is in point t's block iff each coordinate is in the block's range on its axis. -/
theorem mem_blk1 (t : Fin cfg1.N) (i : S8x2048x1024.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v4).slice (win1_2.rect t)).set ↔ _
  rw [View.set_slice_whole, Rect.mem_set_unit]
  exact Iff.rfl

/-- Every entry of the result array is in the block of the point (batch, row / 512). -/
theorem cover1 (i : S8x2048x1024.Idx) : ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 1024 := (i 2).isLt
  have ht : (i 0).val * 4 + (i 1).val / 512 < cfg1.N := by rw [N1_eq]; omega
  refine ⟨⟨(i 0).val * 4 + (i 1).val / 512, ht⟩, flush1_2 _, ?_⟩
  obtain ⟨e0, e1, e2, -, -, -, -, -, -⟩ := idx_facts1 ⟨(i 0).val * 4 + (i 1).val / 512, ht⟩
  have e0' : win1_2.index ⟨(i 0).val * 4 + (i 1).val / 512, ht⟩ (0 : Fin 3) = ((i 0).val * 4 + (i 1).val / 512) / 4 := e0
  have e1' : win1_2.index ⟨(i 0).val * 4 + (i 1).val / 512, ht⟩ (1 : Fin 3) = ((i 0).val * 4 + (i 1).val / 512) % 4 := e1
  rw [mem_blk1]
  intro a
  match a with
  | ⟨0, _⟩ => show win1_2.index _ (0 : Fin 3) * 1 ≤ (i 0).val ∧ (i 0).val < win1_2.index _ (0 : Fin 3) * 1 + 1; omega
  | ⟨1, _⟩ => show win1_2.index _ (1 : Fin 3) * 512 ≤ (i 1).val ∧ (i 1).val < win1_2.index _ (1 : Fin 3) * 512 + 512; omega
  | ⟨2, _⟩ => show win1_2.index _ (2 : Fin 3) * 1024 ≤ (i 2).val ∧ (i 2).val < win1_2.index _ (2 : Fin 3) * 1024 + 1024; omega

/-- The result array after the run is the whole-array attention of the array the region finds. -/
theorem final1 (c : Dev nD) : (dat1 V c).arrAt 2 cfg1.N = attnAll (V c main_v3) :=
  (dat1 V c).arrAt_eq_of_cover 2 (attnAll (V c main_v3)) (fun t _ => flushed1_eq V c t) cover1

/-- Entry (b, 512·j + r, d) of the result array after the run is the body's value on the blocks of point (b, j), at (0, r, d). -/
theorem final1_apply (c : Dev nD) (b : Fin 8) (j : Fin 4) (r : Fin 512) (d : Fin 1024) :
    ((dat1 V c).arrAt 2 cfg1.N : Vec F S8x2048x1024 .f32) (ix3 b (⟨j.val * 512 + r.val, by have := j.isLt; have := r.isLt; omega⟩ : Fin 2048) d)
      = k1_pay1 (qrows (V c main_v3) b j) (kvrows (V c main_v3) b) (ix3 (0 : Fin 1) r d) := by
  rw [final1]
  exact attnAll_at (V c main_v3) b j _ _ rfl rfl rfl

end Cert.KernelIdeal.Rgn

end
-- ==== Proof.Attn.lean ====
/-
  The mathematics both programs compute, stated once over plain coordinates, with no program in sight.

  From the inputs x : [8, 2048, 1024], W : [1024, 1024] and a bias : [1024] the projected rows are
  q[b, s, f] = Σ_d x[b, s, d] · W[d, f] + bias[f].  Inside one batch b, a query row (a vector of 1024 entries)
  meets the 2048 key rows of that batch: its scores are the inner products, its weights the exponentials of the
  scores less their maximum, and the result row is the weighted mean of the key rows.  One program divides the
  weighted SUM by the total weight (`attnK`); the other divides each WEIGHT by the total first (`attnR`).
  On real entries the two agree, because the total weight is a positive real and division by a nonzero real
  distributes over a finite sum; on the extended reals this needs the entries finite.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The word both programs start their row maximum from: minus infinity. -/
abbrev negInf : EReal := Ideal.ofBits .f32 0xFF800000#32

/-- Projected entry (b, s, f): the row x[b, s, ·] against column f of W, plus the bias at f. -/
def proj (x : (⟨3, ![8, 2048, 1024]⟩ : Shape).Idx → EReal) (W : (⟨2, ![1024, 1024]⟩ : Shape).Idx → EReal)
    (bias : (⟨1, ![1024]⟩ : Shape).Idx → EReal) (b : Fin 8) (s : Fin 2048) (f : Fin 1024) : EReal :=
  (∑ d : Fin 1024, x (ix3 b s d) * W (ix2 d f)) + bias (ix1 f)

/-- The score of a query row against key row k: their inner product. -/
def score (qrow : Fin 1024 → EReal) (kv : Fin 2048 → Fin 1024 → EReal) (k : Fin 2048) : EReal :=
  ∑ d : Fin 1024, qrow d * kv k d

/-- The largest score of the row, folded from minus infinity. -/
def rowMax (qrow : Fin 1024 → EReal) (kv : Fin 2048 → Fin 1024 → EReal) : EReal :=
  (Finset.univ : Finset (Fin 2048)).fold max negInf (fun k => score qrow kv k)

/-- The unnormalised weight of key row k: e to the score less the row's maximum. -/
def weight (qrow : Fin 1024 → EReal) (kv : Fin 2048 → Fin 1024 → EReal) (k : Fin 2048) : EReal :=
  Ideal.exp (score qrow kv k - rowMax qrow kv)

/-- The total weight of the row. -/
def denom (qrow : Fin 1024 → EReal) (kv : Fin 2048 → Fin 1024 → EReal) : EReal :=
  ∑ k : Fin 2048, weight qrow kv k

/-- Weighted sum of the key rows, THEN one division by the total weight. -/
def attnK (qrow : Fin 1024 → EReal) (kv : Fin 2048 → Fin 1024 → EReal) (d : Fin 1024) : EReal :=
  Ideal.div (∑ k : Fin 2048, weight qrow kv k * kv k d) (denom qrow kv)

/-- Each weight divided by the total FIRST, then the weighted sum of the key rows. -/
def attnR (qrow : Fin 1024 → EReal) (kv : Fin 2048 → Fin 1024 → EReal) (d : Fin 1024) : EReal :=
  ∑ k : Fin 2048, Ideal.div (weight qrow kv k) (denom qrow kv) * kv k d

end Cert.Attn

end
-- ==== Proof.Pay0.lean ====
/-
  The projection body's stored value, read at one entry of the [1024, 1024] block, on the extended reals:
  row r of the loaded block of x against column f of W (a plain sum over the 1024 contracted entries, the
  matrix product into a zero accumulator), plus the bias row at f.
-/
import proofs.«430863_j16389595201615_3_alg».proof.Proof.Gen.KernelIdeal.Skeleton
import proofs.«430863_j16389595201615_3_alg».proof.Proof.Attn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Attn

/-- Left operand index of the matrix product, axis 0: the output row. -/
theorem lhs_k0_pay1_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- Left operand index, axis 1: the contracted coordinate. -/
theorem lhs_k0_pay1_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- Right operand index, axis 0: the contracted coordinate. -/
theorem rhs_k0_pay1_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- Right operand index, axis 1: the output column. -/
theorem rhs_k0_pay1_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (r, f) of the projection body's result: Σ_d x[r, d] · W[d, f] + bias[0, f]. -/
theorem k0_pay1_apply (v0 v2 : Vec Ideal S1024x1024 .f32) (v4 : Vec Ideal S1x1024 .f32) (r f : Fin 1024) :
    k0_pay1 (F := Ideal) v0 v2 v4 (ix2 r f) = (∑ d : Fin 1024, v0 (ix2 r d) * v2 (ix2 d f)) + v4 (ix2 (0 : Fin 1) f) := by
  unfold k0_pay1
  simp only [shapeCast_self, matmul]
  rw [addf_apply, broadcastTo_1b_ab_apply, Ideal.matmul_constant_zero_apply,
    ← Equiv.sum_comp (contrEquiv1 dot_S1024x1024_S1024x1024_S1024x1024_1_0_0_1_n_n 1024 rfl rfl).symm]
  congr 1
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r f) ((contrEquiv1 dot_S1024x1024_S1024x1024_S1024x1024_1_0_0_1_n_n 1024 rfl rfl).symm k) = ix2 r k := funext fun a => Fin.ext (by
    match a with
    | ⟨0, _⟩ => exact lhs_k0_pay1_0 _ _
    | ⟨1, _⟩ => exact (lhs_k0_pay1_1 _ _).trans hk)
  have er : dot_S1024x1024_S1024x1024_S1024x1024_1_0_0_1_n_n.rhsIdx (ix2 r f) ((contrEquiv1 dot_S1024x1024_S1024x1024_S1024x1024_1_0_0_1_n_n 1024 rfl rfl).symm k) = ix2 k f := funext fun a => Fin.ext (by
    match a with
    | ⟨0, _⟩ => exact (rhs_k0_pay1_0 _ _).trans hk
    | ⟨1, _⟩ => exact rhs_k0_pay1_1 _ _)
  rw [el, er]

end Cert.KernelIdeal.Pay

end
-- ==== Proof.Pay1.lean ====
/-
  The attention body's stored value, read at one entry of the [1, 512, 1024] block, on the extended reals:
  query row r of the loaded query block against the 2048 loaded key rows — scores by inner products, the row's
  maximum folded from minus infinity, weights e^(score − max), their total, the weighted sum of the key rows,
  and ONE division by the total: `Attn.attnK` of that query row and those key rows.
-/
import proofs.«430863_j16389595201615_3_alg».proof.Proof.Gen.KernelIdeal.Skeleton
import proofs.«430863_j16389595201615_3_alg».proof.Proof.Attn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## The score product: axis by axis -/

theorem lhs_score_0 (i : S1x512x2048.Idx) (q : dot_S1x512x1024_S1x2048x1024_S1x512x2048_2_2_1_1_0_0.contr.Idx) :
    (dot_S1x512x1024_S1x2048x1024_S1x512x2048_2_2_1_1_0_0.lhsIdx i q 0).val = (i 0).val := by
  unfold DotDims.lhsIdx
  rw [dif_pos (show (0 : Fin S1x512x1024.rank) ∈ dot_S1x512x1024_S1x2048x1024_S1x512x2048_2_2_1_1_0_0.lhsBatch by decide)]
  rfl
theorem lhs_score_1 (i : S1x512x2048.Idx) (q : dot_S1x512x1024_S1x2048x1024_S1x512x2048_2_2_1_1_0_0.contr.Idx) :
    (dot_S1x512x1024_S1x2048x1024_S1x512x2048_2_2_1_1_0_0.lhsIdx i q 1).val = (i 1).val := by
  unfold DotDims.lhsIdx
  rw [dif_neg (show ¬(1 : Fin S1x512x1024.rank) ∈ dot_S1x512x1024_S1x2048x1024_S1x512x2048_2_2_1_1_0_0.lhsBatch by decide), dif_pos (show (1 : Fin S1x512x1024.rank) ∈ dot_S1x512x1024_S1x2048x1024_S1x512x2048_2_2_1_1_0_0.lhsNonContracting by decide)]
  rfl
theorem lhs_score_2 (i : S1x512x2048.Idx) (q : dot_S1x512x1024_S1x2048x1024_S1x512x2048_2_2_1_1_0_0.contr.Idx) :
    (dot_S1x512x1024_S1x2048x1024_S1x512x2048_2_2_1_1_0_0.lhsIdx i q 2).val = (q ⟨0, by decide⟩).val :=
  dot_S1x512x1024_S1x2048x1024_S1x512x2048_2_2_1_1_0_0.lhsIdx_val_of_single rfl i q
theorem rhs_score_0 (i : S1x512x2048.Idx) (q : dot_S1x512x1024_S1x2048x1024_S1x512x2048_2_2_1_1_0_0.contr.Idx) :
    (dot_S1x512x1024_S1x2048x1024_S1x512x2048_2_2_1_1_0_0.rhsIdx i q 0).val = (i 0).val := by
  unfold DotDims.rhsIdx
  rw [dif_pos (show (0 : Fin S1x2048x1024.rank) ∈ dot_S1x512x1024_S1x2048x1024_S1x512x2048_2_2_1_1_0_0.rhsBatch by decide)]
  rfl
theorem rhs_score_1 (i : S1x512x2048.Idx) (q : dot_S1x512x1024_S1x2048x1024_S1x512x2048_2_2_1_1_0_0.contr.Idx) :
    (dot_S1x512x1024_S1x2048x1024_S1x512x2048_2_2_1_1_0_0.rhsIdx i q 1).val = (i 2).val := by
  unfold DotDims.rhsIdx
  rw [dif_neg (show ¬(1 : Fin S1x2048x1024.rank) ∈ dot_S1x512x1024_S1x2048x1024_S1x512x2048_2_2_1_1_0_0.rhsBatch by decide), dif_pos (show (1 : Fin S1x2048x1024.rank) ∈ dot_S1x512x1024_S1x2048x1024_S1x512x2048_2_2_1_1_0_0.rhsNonContracting by decide)]
  rfl
theorem rhs_score_2 (i : S1x512x2048.Idx) (q : dot_S1x512x1024_S1x2048x1024_S1x512x2048_2_2_1_1_0_0.contr.Idx) :
    (dot_S1x512x1024_S1x2048x1024_S1x512x2048_2_2_1_1_0_0.rhsIdx i q 2).val = (q ⟨0, by decide⟩).val :=
  dot_S1x512x1024_S1x2048x1024_S1x512x2048_2_2_1_1_0_0.rhsIdx_val_of_single rfl i q

/-- Entry (0, r, k) of the score product into zero: the inner product of query row r and key row k. -/
theorem score_block_apply (a : FVec Ideal S1x512x1024 .f32) (b : FVec Ideal S1x2048x1024 .f32) (r : Fin 512) (k : Fin 2048) :
    matmul (F := Ideal) dot_S1x512x1024_S1x2048x1024_S1x512x2048_2_2_1_1_0_0 (some .fp32) a b (constant S1x512x2048 .f32 0x00000000#32) (ix3 (0 : Fin 1) r k)
      = ∑ e : Fin 1024, a (ix3 (0 : Fin 1) r e) * b (ix3 (0 : Fin 1) k e) := by
  refine (Ideal.matmul_constant_zero_apply _ _ _ _ _).trans ?_
  rw [← Equiv.sum_comp (ValueIdx.contrEquiv1 dot_S1x512x1024_S1x2048x1024_S1x512x2048_2_2_1_1_0_0 1024 rfl rfl).symm]
  refine Finset.sum_congr rfl fun e _ => ?_
  have hk := ValueIdx.contrEquiv1_symm_val dot_S1x512x1024_S1x2048x1024_S1x512x2048_2_2_1_1_0_0 1024 rfl rfl e
  have el : dot_S1x512x1024_S1x2048x1024_S1x512x2048_2_2_1_1_0_0.lhsIdx (ix3 (0 : Fin 1) r k) ((ValueIdx.contrEquiv1 dot_S1x512x1024_S1x2048x1024_S1x512x2048_2_2_1_1_0_0 1024 rfl rfl).symm e) = ix3 (0 : Fin 1) r e := funext fun c => Fin.ext (by
    match c with
    | ⟨0, _⟩ => exact lhs_score_0 _ _
    | ⟨1, _⟩ => exact lhs_score_1 _ _
    | ⟨2, _⟩ => exact (lhs_score_2 _ _).trans hk)
  have er : dot_S1x512x1024_S1x2048x1024_S1x512x2048_2_2_1_1_0_0.rhsIdx (ix3 (0 : Fin 1) r k) ((ValueIdx.contrEquiv1 dot_S1x512x1024_S1x2048x1024_S1x512x2048_2_2_1_1_0_0 1024 rfl rfl).symm e) = ix3 (0 : Fin 1) k e := funext fun c => Fin.ext (by
    match c with
    | ⟨0, _⟩ => exact rhs_score_0 _ _
    | ⟨1, _⟩ => exact rhs_score_1 _ _
    | ⟨2, _⟩ => exact (rhs_score_2 _ _).trans hk)
  rw [el, er]

/-! ## The weighted-sum product: axis by axis -/

theorem lhs_pv_0 (i : S1x512x1024.Idx) (q : dot_S1x512x2048_S1x2048x1024_S1x512x1024_2_1_1_2_0_0.contr.Idx) :
    (dot_S1x512x2048_S1x2048x1024_S1x512x1024_2_1_1_2_0_0.lhsIdx i q 0).val = (i 0).val := by
  unfold DotDims.lhsIdx
  rw [dif_pos (show (0 : Fin S1x512x2048.rank) ∈ dot_S1x512x2048_S1x2048x1024_S1x512x1024_2_1_1_2_0_0.lhsBatch by decide)]
  rfl
theorem lhs_pv_1 (i : S1x512x1024.Idx) (q : dot_S1x512x2048_S1x2048x1024_S1x512x1024_2_1_1_2_0_0.contr.Idx) :
    (dot_S1x512x2048_S1x2048x1024_S1x512x1024_2_1_1_2_0_0.lhsIdx i q 1).val = (i 1).val := by
  unfold DotDims.lhsIdx
  rw [dif_neg (show ¬(1 : Fin S1x512x2048.rank) ∈ dot_S1x512x2048_S1x2048x1024_S1x512x1024_2_1_1_2_0_0.lhsBatch by decide), dif_pos (show (1 : Fin S1x512x2048.rank) ∈ dot_S1x512x2048_S1x2048x1024_S1x512x1024_2_1_1_2_0_0.lhsNonContracting by decide)]
  rfl
theorem lhs_pv_2 (i : S1x512x1024.Idx) (q : dot_S1x512x2048_S1x2048x1024_S1x512x1024_2_1_1_2_0_0.contr.Idx) :
    (dot_S1x512x2048_S1x2048x1024_S1x512x1024_2_1_1_2_0_0.lhsIdx i q 2).val = (q ⟨0, by decide⟩).val :=
  dot_S1x512x2048_S1x2048x1024_S1x512x1024_2_1_1_2_0_0.lhsIdx_val_of_single rfl i q
theorem rhs_pv_0 (i : S1x512x1024.Idx) (q : dot_S1x512x2048_S1x2048x1024_S1x512x1024_2_1_1_2_0_0.contr.Idx) :
    (dot_S1x512x2048_S1x2048x1024_S1x512x1024_2_1_1_2_0_0.rhsIdx i q 0).val = (i 0).val := by
  unfold DotDims.rhsIdx
  rw [dif_pos (show (0 : Fin S1x2048x1024.rank) ∈ dot_S1x512x2048_S1x2048x1024_S1x512x1024_2_1_1_2_0_0.rhsBatch by decide)]
  rfl
theorem rhs_pv_1 (i : S1x512x1024.Idx) (q : dot_S1x512x2048_S1x2048x1024_S1x512x1024_2_1_1_2_0_0.contr.Idx) :
    (dot_S1x512x2048_S1x2048x1024_S1x512x1024_2_1_1_2_0_0.rhsIdx i q 1).val = (q ⟨0, by decide⟩).val :=
  dot_S1x512x2048_S1x2048x1024_S1x512x1024_2_1_1_2_0_0.rhsIdx_val_of_single rfl i q
theorem rhs_pv_2 (i : S1x512x1024.Idx) (q : dot_S1x512x2048_S1x2048x1024_S1x512x1024_2_1_1_2_0_0.contr.Idx) :
    (dot_S1x512x2048_S1x2048x1024_S1x512x1024_2_1_1_2_0_0.rhsIdx i q 2).val = (i 2).val := by
  unfold DotDims.rhsIdx
  rw [dif_neg (show ¬(2 : Fin S1x2048x1024.rank) ∈ dot_S1x512x2048_S1x2048x1024_S1x512x1024_2_1_1_2_0_0.rhsBatch by decide), dif_pos (show (2 : Fin S1x2048x1024.rank) ∈ dot_S1x512x2048_S1x2048x1024_S1x512x1024_2_1_1_2_0_0.rhsNonContracting by decide)]
  rfl

/-- Entry (0, r, d) of the weighted-sum product into zero: the sum over the key rows k of weight (r, k) times key entry (k, d). -/
theorem pv_block_apply (w : FVec Ideal S1x512x2048 .f32) (b : FVec Ideal S1x2048x1024 .f32) (r : Fin 512) (d : Fin 1024) :
    matmul (F := Ideal) dot_S1x512x2048_S1x2048x1024_S1x512x1024_2_1_1_2_0_0 (some .fp32) w b (constant S1x512x1024 .f32 0x00000000#32) (ix3 (0 : Fin 1) r d)
      = ∑ k : Fin 2048, w (ix3 (0 : Fin 1) r k) * b (ix3 (0 : Fin 1) k d) := by
  refine (Ideal.matmul_constant_zero_apply _ _ _ _ _).trans ?_
  rw [← Equiv.sum_comp (ValueIdx.contrEquiv1 dot_S1x512x2048_S1x2048x1024_S1x512x1024_2_1_1_2_0_0 2048 rfl rfl).symm]
  refine Finset.sum_congr rfl fun k _ => ?_
  have hk := ValueIdx.contrEquiv1_symm_val dot_S1x512x2048_S1x2048x1024_S1x512x1024_2_1_1_2_0_0 2048 rfl rfl k
  have el : dot_S1x512x2048_S1x2048x1024_S1x512x1024_2_1_1_2_0_0.lhsIdx (ix3 (0 : Fin 1) r d) ((ValueIdx.contrEquiv1 dot_S1x512x2048_S1x2048x1024_S1x512x1024_2_1_1_2_0_0 2048 rfl rfl).symm k) = ix3 (0 : Fin 1) r k := funext fun c => Fin.ext (by
    match c with
    | ⟨0, _⟩ => exact lhs_pv_0 _ _
    | ⟨1, _⟩ => exact lhs_pv_1 _ _
    | ⟨2, _⟩ => exact (lhs_pv_2 _ _).trans hk)
  have er : dot_S1x512x2048_S1x2048x1024_S1x512x1024_2_1_1_2_0_0.rhsIdx (ix3 (0 : Fin 1) r d) ((ValueIdx.contrEquiv1 dot_S1x512x2048_S1x2048x1024_S1x512x1024_2_1_1_2_0_0 2048 rfl rfl).symm k) = ix3 (0 : Fin 1) k d := funext fun c => Fin.ext (by
    match c with
    | ⟨0, _⟩ => exact rhs_pv_0 _ _
    | ⟨1, _⟩ => exact (rhs_pv_1 _ _).trans hk
    | ⟨2, _⟩ => exact rhs_pv_2 _ _)
  rw [el, er]

/-! ## The two reductions over the key axis -/

/-- The row maximum at (0, r): the fold of max from minus infinity over the 2048 entries of row r. -/
theorem rowmax_block_apply (s : FVec Ideal S1x512x2048 .f32) (r : Fin 512) :
    multiReduction (F := Ideal) .maximumf [2] S1x512 s 0xFF800000#32 reduces_S1x512x2048_S1x512 (.inl rfl) rfl (ix2 (0 : Fin 1) r)
      = (Finset.univ : Finset (Fin 2048)).fold max negInf (fun k => s (ix3 (0 : Fin 1) r k)) := by
  refine (Ideal.multiReduction_maximumf_single _ _ _ _ _ _).trans ?_
  show (Finset.univ : Finset (Fin 2048)).fold max negInf (s ∘ reduces_S1x512x2048_S1x512.lift (ix2 (0 : Fin 1) r)) = _
  refine congrArg ((Finset.univ : Finset (Fin 2048)).fold max negInf) (funext fun k => ?_)
  exact congrArg s (funext fun c => Fin.ext (by match c with | ⟨0, _⟩ => rfl | ⟨1, _⟩ => rfl | ⟨2, _⟩ => rfl))

/-- The row total at (0, r): the sum of the 2048 entries of row r. -/
theorem rowsum_block_apply (s : FVec Ideal S1x512x2048 .f32) (r : Fin 512) :
    multiReduction (F := Ideal) .add [2] S1x512 s 0x00000000#32 reduces_S1x512x2048_S1x512 (.inl rfl) rfl (ix2 (0 : Fin 1) r)
      = ∑ k : Fin 2048, s (ix3 (0 : Fin 1) r k) := by
  refine (Ideal.multiReduction_add_single _ _ _ _ _ _).trans ?_
  show ∑ k : Fin 2048, s (reduces_S1x512x2048_S1x512.lift (ix2 (0 : Fin 1) r) k) = _
  refine Finset.sum_congr rfl fun k _ => ?_
  exact congrArg s (funext fun c => Fin.ext (by match c with | ⟨0, _⟩ => rfl | ⟨1, _⟩ => rfl | ⟨2, _⟩ => rfl))

/-! ## A per-row value kept as a unit last axis, then spread along it -/

/-- A [1, 512] value cast to [1, 512, 1] reads, at (0, r, 0), the value at (0, r). -/
theorem keep_apply {α : Type} (x : S1x512.Idx → α) (r : Fin 512) :
    shapeCast S1x512x1 x shapeCasts_S1x512_S1x512x1 (ix3 (0 : Fin 1) r (0 : Fin 1)) = x (ix2 (0 : Fin 1) r) :=
  shapeCast_apply x _ _ _ (by
    rw [Shape.rowMajor_val_three, Shape.rowMajor_val_two]
    show 0 * 512 + r.val = (0 * 512 + r.val) * 1 + 0
    omega)

/-- A [1, 512, 1] value spread to [1, 512, 2048] reads, at (0, r, k), the value at (0, r, 0). -/
theorem spread2048_apply {α : Type} (x : S1x512x1.Idx → α) (r : Fin 512) (k : Fin 2048) :
    broadcastTo S1x512x2048 x broadcasts_S1x512x1_S1x512x2048 (ix3 (0 : Fin 1) r k) = x (ix3 (0 : Fin 1) r (0 : Fin 1)) :=
  broadcastTo_apply x _ _ _ fun c => match c with
    | ⟨0, _⟩ => rfl
    | ⟨1, _⟩ => rfl
    | ⟨2, _⟩ => rfl

/-- A [1, 512, 1] value spread to [1, 512, 1024] reads, at (0, r, d), the value at (0, r, 0). -/
theorem spread1024_apply {α : Type} (x : S1x512x1.Idx → α) (r : Fin 512) (d : Fin 1024) :
    broadcastTo S1x512x1024 x broadcasts_S1x512x1_S1x512x1024 (ix3 (0 : Fin 1) r d) = x (ix3 (0 : Fin 1) r (0 : Fin 1)) :=
  broadcastTo_apply x _ _ _ fun c => match c with
    | ⟨0, _⟩ => rfl
    | ⟨1, _⟩ => rfl
    | ⟨2, _⟩ => rfl

/-! ## The weights, and the result -/

/-- Entry (0, r, k) of the exponentials block: e to the score of (r, k) less the maximum of row r. -/
theorem weight_block_apply (v0 : FVec Ideal S1x512x1024 .f32) (v2 : FVec Ideal S1x2048x1024 .f32) (r : Fin 512) (k : Fin 2048) :
    exp (F := Ideal) (subf
        (matmul (F := Ideal) dot_S1x512x1024_S1x2048x1024_S1x512x2048_2_2_1_1_0_0 (some .fp32) v0 v2 (constant S1x512x2048 .f32 0x00000000#32))
        (broadcastTo S1x512x2048
          (shapeCast S1x512x1
            (multiReduction (F := Ideal) .maximumf [2] S1x512
              (matmul (F := Ideal) dot_S1x512x1024_S1x2048x1024_S1x512x2048_2_2_1_1_0_0 (some .fp32) v0 v2 (constant S1x512x2048 .f32 0x00000000#32))
              0xFF800000#32 reduces_S1x512x2048_S1x512 (.inl rfl) rfl)
            shapeCasts_S1x512_S1x512x1)
          broadcasts_S1x512x1_S1x512x2048)) (ix3 (0 : Fin 1) r k)
      = weight (fun e : Fin 1024 => v0 (ix3 (0 : Fin 1) r e)) (fun (k : Fin 2048) (e : Fin 1024) => v2 (ix3 (0 : Fin 1) k e)) k := by
  unfold weight rowMax score
  refine congrArg Ideal.exp (congrArg₂ (· - ·) (score_block_apply v0 v2 r k) ?_)
  refine (spread2048_apply _ r k).trans ?_
  refine (keep_apply _ r).trans ?_
  refine (rowmax_block_apply _ r).trans ?_
  exact congrArg ((Finset.univ : Finset (Fin 2048)).fold max negInf) (funext fun j => score_block_apply v0 v2 r j)

/-- Entry (0, r, d) of the attention body's result is `attnK` of query row r and the loaded key rows, at d. -/
theorem k1_pay1_apply (v0 : Vec Ideal S1x512x1024 .f32) (v2 : Vec Ideal S1x2048x1024 .f32) (r : Fin 512) (d : Fin 1024) :
    k1_pay1 (F := Ideal) v0 v2 (ix3 (0 : Fin 1) r d)
      = attnK (fun e : Fin 1024 => v0 (ix3 (0 : Fin 1) r e)) (fun (k : Fin 2048) (e : Fin 1024) => v2 (ix3 (0 : Fin 1) k e)) d := by
  have e1 : shapeCast S1x512x1024 v0 shapeCasts_S1x512x1024_S1x512x1024 = v0 := shapeCast_self _ _
  have e3 : shapeCast S1x2048x1024 v2 shapeCasts_S1x2048x1024_S1x2048x1024 = v2 := shapeCast_self _ _
  unfold k1_pay1 attnK denom
  simp only [e1, e3]
  refine congrArg₂ Ideal.div ?_ ?_
  · refine (pv_block_apply _ _ r d).trans ?_
    exact Finset.sum_congr rfl fun k _ => congrArg (· * v2 (ix3 (0 : Fin 1) k d)) (weight_block_apply v0 v2 r k)
  · refine (spread1024_apply _ r d).trans ?_
    refine (keep_apply _ r).trans ?_
    refine (rowsum_block_apply _ r).trans ?_
    exact Finset.sum_congr rfl fun k _ => weight_block_apply v0 v2 r k

end Cert.KernelIdeal.Pay

end
-- ==== Proof.Reshape.lean ====
/-
  The three host reshapes of the program, read at an entry.  A reshape keeps the row-major order of the entries:
  entry (b, s, d) of a [8, 2048, 1024] array is entry (2048·b + s, d) of the same data laid out as [16384, 1024],
  and entry f of a [1024] vector is entry (0, f) of it laid out as [1, 1024].
-/
import Idealize.ShloMosaic.Lib.Pipeline.Value
import Idealize.ShloMosaic.Lib.ValueIdx
import Idealize.ShloMosaic.Lib.ValueLayout

noncomputable section

namespace Cert.Attn

open Idealize.ShloMosaic Idealize.ShloMosaic.ValueIdx

variable {α : Type}

/-- [8, 2048, 1024] laid out as [16384, 1024]: row 2048·b + s is row s of batch b. -/
theorem reshape_rows_apply (x : (⟨3, ![8, 2048, 1024]⟩ : Shape).Idx → α)
    (h : (⟨3, ![8, 2048, 1024]⟩ : Shape).ShapeCasts ⟨2, ![16384, 1024]⟩) (b : Fin 8) (s : Fin 2048) (d : Fin 1024) :
    shapeCast (⟨2, ![16384, 1024]⟩ : Shape) x h
        (ix2 (⟨b.val * 2048 + s.val, by have := b.isLt; have := s.isLt; omega⟩ : Fin 16384) d)
      = x (ix3 b s d) := by
  exact shapeCast_apply x h _ _ (by
    rw [Shape.rowMajor_val_three, Shape.rowMajor_val_two]
    show (b.val * 2048 + s.val) * 1024 + d.val = (b.val * 2048 + s.val) * 1024 + d.val
    rfl)

/-- [16384, 1024] laid out as [8, 2048, 1024]: row s of batch b is row 2048·b + s. -/
theorem reshape_batches_apply (y : (⟨2, ![16384, 1024]⟩ : Shape).Idx → α)
    (h : (⟨2, ![16384, 1024]⟩ : Shape).ShapeCasts ⟨3, ![8, 2048, 1024]⟩) (b : Fin 8) (s : Fin 2048) (d : Fin 1024) :
    shapeCast (⟨3, ![8, 2048, 1024]⟩ : Shape) y h (ix3 b s d)
      = y (ix2 (⟨b.val * 2048 + s.val, by have := b.isLt; have := s.isLt; omega⟩ : Fin 16384) d) := by
  exact shapeCast_apply y h _ _ (by
    rw [Shape.rowMajor_val_three, Shape.rowMajor_val_two]
    show (b.val * 2048 + s.val) * 1024 + d.val = (b.val * 2048 + s.val) * 1024 + d.val
    rfl)

/-- [1024] laid out as [1, 1024]. -/
theorem reshape_row_apply (z : (⟨1, ![1024]⟩ : Shape).Idx → α)
    (h : (⟨1, ![1024]⟩ : Shape).ShapeCasts ⟨2, ![1, 1024]⟩) (f : Fin 1024) :
    shapeCast (⟨2, ![1, 1024]⟩ : Shape) z h (ix2 (0 : Fin 1) f) = z (ix1 f) := by
  exact shapeCast_a_1a_apply z h (0 : Fin 1) f

end Cert.Attn

end
-- ==== Proof.KIResult.lean ====
/-
  The idealized kernel's result buffer after the run, read at one entry (b, s, d), on the extended reals.

  The attention call's final array at (b, s, d) is the attention body's value on the query block that holds row s of
  batch b and on all of batch b's rows as keys; those rows are the projection call's final array laid out by batches, and
  each of its entries is the projection body's value on the row block of x that holds the row: a row of x against a
  column of W, plus the bias.  Together: `Attn.attnK` of the projected query row (b, s) against the projected rows of
  batch b.
-/
import proofs.«430863_j16389595201615_3_alg».proof.Proof.KIHost
import proofs.«430863_j16389595201615_3_alg».proof.Proof.KIValue0
import proofs.«430863_j16389595201615_3_alg».proof.Proof.KIValue1
import proofs.«430863_j16389595201615_3_alg».proof.Proof.Pay0
import proofs.«430863_j16389595201615_3_alg».proof.Proof.Pay1
import proofs.«430863_j16389595201615_3_alg».proof.Proof.Reshape
import proofs.«430863_j16389595201615_3_alg».proof.Proof.Attn

set_option maxRecDepth 16384

noncomputable section

namespace Cert.KernelIdeal.Rgn

open Cert.KernelIdeal Cert.KernelIdeal.Gen Cert.KernelIdeal.Pay Cert.Attn
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The three inputs as launched on core `c`. -/
abbrev inX (c : Dev nD) : Vec Ideal S8x2048x1024 .f32 := m ((c : Thread nD τ).loc main_arg0)
abbrev inW (c : Dev nD) : Vec Ideal S1024x1024 .f32 := m ((c : Thread nD τ).loc main_arg1)
abbrev inB (c : Dev nD) : Vec Ideal S1024 .f32 := m ((c : Thread nD τ).loc main_arg2)

/-- What the projection call finds, at literal types: x laid out in rows, W, the bias laid out as a row. -/
abbrev xRows (c : Dev nD) : Vec Ideal S16384x1024 .f32 := V1 m ρ c main_v0
abbrev wFound (c : Dev nD) : Vec Ideal S1024x1024 .f32 := V1 m ρ c main_arg1
abbrev bRow (c : Dev nD) : Vec Ideal S1x1024 .f32 := V1 m ρ c main_v1
theorem xRows_eq (c : Dev nD) : xRows m ρ c = shapeCast S16384x1024 (inX m c) shapeCasts_S8x2048x1024_S16384x1024 := V1_main_v0 m ρ c
theorem wFound_eq (c : Dev nD) : wFound m ρ c = inW m c := V1_main_arg1 m ρ c
theorem bRow_eq (c : Dev nD) : bRow m ρ c = shapeCast S1x1024 (inB m c) shapeCasts_S1024_S1x1024 := V1_main_v1 m ρ c

/-- Entry (n, e) of the projection call's final array: row n of x (as laid out in rows) against column e of W, plus the
    bias row at e. -/
theorem res0_apply (c : Dev nD) (n : Fin 16384) (e : Fin 1024) :
    ((dat0 (V1 m ρ) c).arrAt 3 cfg0.N : Vec Ideal S16384x1024 .f32) (ix2 n e)
      = (∑ d : Fin 1024, xRows m ρ c (ix2 n d) * wFound m ρ c (ix2 d e)) + bRow m ρ c (ix2 (0 : Fin 1) e) := by
  obtain ⟨t, r, rfl⟩ : ∃ (t : Fin 16) (r : Fin 1024), n = ⟨t.val * 1024 + r.val, by have := t.isLt; have := r.isLt; omega⟩ :=
    ⟨⟨n.val / 1024, by have := n.isLt; omega⟩, ⟨n.val % 1024, Nat.mod_lt _ (by decide)⟩, Fin.ext (by show n.val = n.val / 1024 * 1024 + n.val % 1024; omega)⟩
  rw [final0_apply, k0_pay1_apply]
  rfl

/-- Entry (b, s, e) of what the attention call finds: the projected entry. -/
theorem q_apply (c : Dev nD) (b : Fin 8) (s : Fin 2048) (e : Fin 1024) :
    (V3 m ρ c main_v3 : Vec Ideal S8x2048x1024 .f32) (ix3 b s e) = proj (inX m c) (inW m c) (inB m c) b s e := by
  rw [V3_main_v3, reshape_batches_apply, res0_apply, xRows_eq, wFound_eq, bRow_eq]
  unfold proj
  simp only [reshape_rows_apply, reshape_row_apply]

/-- Entry (b, s, d) of the result buffer at the end of the run. -/
theorem result_apply (c : Dev nD) (b : Fin 8) (s : Fin 2048) (d : Fin 1024) :
    (V4 m ρ c main_v4 : Vec Ideal S8x2048x1024 .f32) (ix3 b s d)
      = attnK (fun e : Fin 1024 => proj (inX m c) (inW m c) (inB m c) b s e)
          (fun (k : Fin 2048) (e : Fin 1024) => proj (inX m c) (inW m c) (inB m c) b k e) d := by
  obtain ⟨j, r, rfl⟩ : ∃ (j : Fin 4) (r : Fin 512), s = ⟨j.val * 512 + r.val, by have := j.isLt; have := r.isLt; omega⟩ :=
    ⟨⟨s.val / 512, by have := s.isLt; omega⟩, ⟨s.val % 512, Nat.mod_lt _ (by decide)⟩, Fin.ext (by show s.val = s.val / 512 * 512 + s.val % 512; omega)⟩
  rw [V4_main_v4, final1_apply, k1_pay1_apply]
  refine congrArg₂ (fun qr kv => attnK qr kv d) (funext fun e => ?_) (funext fun k => funext fun e => ?_)
  · exact q_apply m ρ c b _ e
  · exact q_apply m ρ c b k e

end Cert.KernelIdeal.Rgn

end
-- ==== Proof.RefRead.lean ====
/-
  The reference program's result, read at one entry (b, s, d), on the extended reals: with q the projected rows
  (`Attn.proj` of the three inputs), it is `Attn.attnR` of query row q[b, s, ·] against the key rows q[b, ·, ·] —
  scores, the row maximum (the host reduce folded from minus infinity, then once more against minus infinity,
  which changes nothing), weights, their total (zero plus the sum), each weight divided by the total, and the
  weighted sum of the key rows.
-/
import proofs.«430863_j16389595201615_3_alg».proof.Proof.Gen.ReferenceIdeal.Read
import proofs.«430863_j16389595201615_3_alg».proof.Proof.Attn
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-! ## The composed index functions at explicit coordinates -/

private theorem lidx0_ix (b : Fin 8) (s : Fin 2048) (e d : Fin 1024) : lidx_main_v0 (ix3 b s e) d = ix3 b s d :=
  funext fun a => Fin.ext (by match a with | ⟨0, _⟩ => rfl | ⟨1, _⟩ => rfl | ⟨2, _⟩ => rfl)
private theorem ridx0_ix (b : Fin 8) (s : Fin 2048) (e d : Fin 1024) : ridx_main_v0 (ix3 b s e) d = ix2 d e :=
  funext fun a => Fin.ext (by match a with | ⟨0, _⟩ => rfl | ⟨1, _⟩ => rfl)
private theorem idx1_ix (b : Fin 8) (s : Fin 2048) (e : Fin 1024) : idx_main_v1 (idx_main_v2 (ix3 b s e)) = ix1 e :=
  funext fun a => Fin.ext (by match a with | ⟨0, _⟩ => rfl)
private theorem lidx4_ix (b : Fin 8) (s k : Fin 2048) (e : Fin 1024) : lidx_main_v4 (ix3 b s k) e = ix3 b s e :=
  funext fun a => Fin.ext (by match a with | ⟨0, _⟩ => rfl | ⟨1, _⟩ => rfl | ⟨2, _⟩ => rfl)
private theorem ridx4_ix (b : Fin 8) (s k : Fin 2048) (e : Fin 1024) : ridx_main_v4 (ix3 b s k) e = ix3 b k e :=
  funext fun a => Fin.ext (by match a with | ⟨0, _⟩ => rfl | ⟨1, _⟩ => rfl | ⟨2, _⟩ => rfl)
private theorem idx8_ix (b : Fin 8) (s k : Fin 2048) : idx_main_v8 (idx_main_v9 (ix3 b s k)) = ix2 b s :=
  funext fun a => Fin.ext (by match a with | ⟨0, _⟩ => rfl | ⟨1, _⟩ => rfl)
private theorem idx12_ix (b : Fin 8) (s k : Fin 2048) : idx_main_v12 (ix2 b s) k = ix3 b s k :=
  funext fun a => Fin.ext (by match a with | ⟨0, _⟩ => rfl | ⟨1, _⟩ => rfl | ⟨2, _⟩ => rfl)
private theorem idx13_ix (b : Fin 8) (s k : Fin 2048) : idx_main_v13 (idx_main_v14 (ix3 b s k)) = ix2 b s :=
  funext fun a => Fin.ext (by match a with | ⟨0, _⟩ => rfl | ⟨1, _⟩ => rfl)
private theorem lidx16_ix (b : Fin 8) (s k : Fin 2048) (d : Fin 1024) : lidx_main_v16 (ix3 b s d) k = ix3 b s k :=
  funext fun a => Fin.ext (by match a with | ⟨0, _⟩ => rfl | ⟨1, _⟩ => rfl | ⟨2, _⟩ => rfl)
private theorem ridx16_ix (b : Fin 8) (s k : Fin 2048) (d : Fin 1024) : ridx_main_v16 (ix3 b s d) k = ix3 b k d :=
  funext fun a => Fin.ext (by match a with | ⟨0, _⟩ => rfl | ⟨1, _⟩ => rfl | ⟨2, _⟩ => rfl)

section
variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal))

/-- The projected rows: entry (b, s, e) of the sum of the first product and the broadcast bias. -/
private theorem v3_ix (b : Fin 8) (s : Fin 2048) (e : Fin 1024) :
    val_main_v3 (F := Ideal) x0 x1 x2 (ix3 b s e) = proj x0 x1 x2 b s e := by
  rw [val_main_v3_apply, val_main_v0_apply, val_main_v2_apply, val_main_v1_apply, Ideal.addf_def]
  simp only [lidx0_ix, ridx0_ix, idx1_ix]
  rfl

/-- The scores: entry (b, s, k) of the second product. -/
private theorem v4_ix (b : Fin 8) (s k : Fin 2048) :
    val_main_v4 (F := Ideal) x0 x1 x2 (ix3 b s k)
      = score (fun e : Fin 1024 => proj x0 x1 x2 b s e) (fun (k : Fin 2048) (e : Fin 1024) => proj x0 x1 x2 b k e) k := by
  rw [val_main_v4_apply]
  simp only [lidx4_ix, ridx4_ix, v3_ix]
  rfl

/-- The shape fact the host reduce's inserted index is defined from. -/
private theorem reduces_d2 : S8x2048x2048.Reduces [2] S8x2048 := by decide

/-- The host reduce's inserted index over (b, s) with coordinate k on the dropped axis is (b, s, k). -/
private theorem lift_ix (b : Fin 8) (s k : Fin 2048) : reduces_d2.lift (ix2 b s) k = ix3 b s k :=
  funext fun a => Fin.ext (by match a with | ⟨0, _⟩ => rfl | ⟨1, _⟩ => rfl | ⟨2, _⟩ => rfl)

/-- The row maximum as the host reduce gives it: the fold of max from minus infinity over the scores of the row. -/
private theorem v5_ix (b : Fin 8) (s : Fin 2048) :
    val_main_v5 (F := Ideal) x0 x1 x2 (ix2 b s)
      = rowMax (fun e : Fin 1024 => proj x0 x1 x2 b s e) (fun (k : Fin 2048) (e : Fin 1024) => proj x0 x1 x2 b k e) := by
  unfold val_main_v5
  rw [Host.reduce_eq_fold_single FloatOps.maximumf _ _ reducesTo_S8x2048x2048_S8x2048_d2 reduces_d2 h_S_ (ix2 b s)]
  have hf : (val_main_v4 (F := Ideal) x0 x1 x2 ∘ reduces_d2.lift (ix2 b s))
      = fun k : Fin 2048 => score (fun e : Fin 1024 => proj x0 x1 x2 b s e) (fun (k : Fin 2048) (e : Fin 1024) => proj x0 x1 x2 b k e) k :=
    funext fun k => (congrArg (val_main_v4 (F := Ideal) x0 x1 x2) (lift_ix b s k)).trans (v4_ix x0 x1 x2 b s k)
  rw [hf]
  rfl

/-- One more maximum against minus infinity changes nothing: the fold started there. -/
private theorem v7_ix (b : Fin 8) (s : Fin 2048) :
    val_main_v7 (F := Ideal) x0 x1 x2 (ix2 b s)
      = rowMax (fun e : Fin 1024 => proj x0 x1 x2 b s e) (fun (k : Fin 2048) (e : Fin 1024) => proj x0 x1 x2 b k e) := by
  rw [val_main_v7_apply, val_main_v6_apply, val_main_cst_0_apply, v5_ix, Ideal.maximumf_def, Ideal.ofBits_def]
  exact max_eq_right ((Finset.le_fold_max _).2 (Or.inl le_rfl))

/-- The weights: entry (b, s, k) of the exponential of the scores less the row maximum. -/
private theorem v11_ix (b : Fin 8) (s k : Fin 2048) :
    val_main_v11 (F := Ideal) x0 x1 x2 (ix3 b s k)
      = weight (fun e : Fin 1024 => proj x0 x1 x2 b s e) (fun (k : Fin 2048) (e : Fin 1024) => proj x0 x1 x2 b k e) k := by
  rw [val_main_v11_apply, val_main_v10_apply, val_main_v9_apply, val_main_v8_apply, idx8_ix, v7_ix, v4_ix,
    Ideal.hostUnary_exp_def, Ideal.subf_def]
  rfl

/-- The total weight: zero plus the sum of the row's weights. -/
private theorem v12_ix (b : Fin 8) (s : Fin 2048) :
    val_main_v12 (F := Ideal) x0 x1 x2 (ix2 b s)
      = denom (fun e : Fin 1024 => proj x0 x1 x2 b s e) (fun (k : Fin 2048) (e : Fin 1024) => proj x0 x1 x2 b k e) := by
  rw [val_main_v12_apply, val_main_cst_1_apply, Ideal.ofBits_def, Ideal.ofBits_zero_f32, zero_add]
  simp only [idx12_ix, v11_ix]
  rfl

/-- Each weight divided by the total. -/
private theorem v15_ix (b : Fin 8) (s k : Fin 2048) :
    val_main_v15 (F := Ideal) x0 x1 x2 (ix3 b s k)
      = Ideal.div (weight (fun e : Fin 1024 => proj x0 x1 x2 b s e) (fun (k : Fin 2048) (e : Fin 1024) => proj x0 x1 x2 b k e) k)
          (denom (fun e : Fin 1024 => proj x0 x1 x2 b s e) (fun (k : Fin 2048) (e : Fin 1024) => proj x0 x1 x2 b k e)) := by
  rw [val_main_v15_apply, val_main_v14_apply, val_main_v13_apply, idx13_ix, v12_ix, v11_ix, Ideal.hostDivf_def]

end

/-- Entry (b, s, d) of the reference's result. -/
theorem result_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (b : Fin 8) (s : Fin 2048) (d : Fin 1024) :
    val_main_v16 (F := Ideal) x0 x1 x2 (ix3 b s d)
      = attnR (fun e : Fin 1024 => proj x0 x1 x2 b s e) (fun (k : Fin 2048) (e : Fin 1024) => proj x0 x1 x2 b k e) d := by
  rw [val_main_v16_apply]
  simp only [lidx16_ix, ridx16_ix, v15_ix, v3_ix]
  rfl

end Cert.ReferenceIdeal.RefValue

end
-- ==== Proof.AttnLaw.lean ====
/-
  Two facts about the attention arithmetic of `Attn.lean`, on the extended reals.
-/
import proofs.«430863_j16389595201615_3_alg».proof.Proof.Attn

noncomputable section

namespace Cert.Attn

open Idealize.ShloMosaic Idealize.ShloMosaic.ValueIdx

/-- A finite sum of coerced reals is the coercion of the real sum. -/
theorem coe_finset_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of products of reals is real. -/
theorem sum_mul_real {ι : Type*} (s : Finset ι) (u v : ι → EReal) (hu : ∀ i, ∃ r : ℝ, u i = (r : EReal))
    (hv : ∀ i, ∃ r : ℝ, v i = (r : EReal)) : ∃ r : ℝ, ∑ i ∈ s, u i * v i = (r : EReal) := by
  choose a ha using hu
  choose b hb using hv
  refine ⟨∑ i ∈ s, a i * b i, ?_⟩
  rw [← coe_finset_sum]
  refine Finset.sum_congr rfl fun i _ => ?_
  rw [ha, hb, EReal.coe_mul]

/-- A projected entry of real inputs is real. -/
theorem proj_real (x : (⟨3, ![8, 2048, 1024]⟩ : Shape).Idx → EReal) (W : (⟨2, ![1024, 1024]⟩ : Shape).Idx → EReal)
    (bias : (⟨1, ![1024]⟩ : Shape).Idx → EReal) (hx : ∀ i, ∃ r : ℝ, x i = (r : EReal)) (hW : ∀ i, ∃ r : ℝ, W i = (r : EReal))
    (hb : ∀ i, ∃ r : ℝ, bias i = (r : EReal)) (b : Fin 8) (s : Fin 2048) (f : Fin 1024) :
    ∃ r : ℝ, proj x W bias b s f = (r : EReal) := by
  obtain ⟨r, hr⟩ := sum_mul_real Finset.univ (fun d : Fin 1024 => x (ix3 b s d)) (fun d : Fin 1024 => W (ix2 d f))
    (fun d => hx _) (fun d => hW _)
  have hr' : ∑ d : Fin 1024, x (ix3 b s d) * W (ix2 d f) = (r : EReal) := hr
  obtain ⟨c, hc⟩ := hb (ix1 f)
  exact ⟨r + c, by rw [proj, hr', hc, EReal.coe_add]⟩

/-- The starting word of the row maximum is the bottom element. -/
theorem negInf_eq_bot : negInf = ⊥ := by
  simp [negInf, Ideal.ofBits, Ideal.ieee]

/-- Every score of real rows is real. -/
theorem score_real (qrow : Fin 1024 → EReal) (kv : Fin 2048 → Fin 1024 → EReal)
    (hq : ∀ d, ∃ r : ℝ, qrow d = (r : EReal)) (hk : ∀ k d, ∃ r : ℝ, kv k d = (r : EReal)) (k : Fin 2048) :
    ∃ r : ℝ, score qrow kv k = (r : EReal) :=
  sum_mul_real Finset.univ qrow (kv k) hq (hk k)

/-- The maximum, folded from bottom, of real values over a nonempty index set is real. -/
theorem fold_max_real {ι : Type*} (s : Finset ι) (hs : s.Nonempty) (f : ι → EReal)
    (hf : ∀ i, ∃ r : ℝ, f i = (r : EReal)) : ∃ r : ℝ, s.fold max (⊥ : EReal) f = (r : EReal) := by
  obtain ⟨i, _, hi⟩ := Finset.exists_mem_eq_sup s hs f
  obtain ⟨r, hr⟩ := hf i
  exact ⟨r, by rw [← hr, ← hi]; rfl⟩

/-- The row maximum of real rows is real. -/
theorem rowMax_real (qrow : Fin 1024 → EReal) (kv : Fin 2048 → Fin 1024 → EReal)
    (hq : ∀ d, ∃ r : ℝ, qrow d = (r : EReal)) (hk : ∀ k d, ∃ r : ℝ, kv k d = (r : EReal)) :
    ∃ r : ℝ, rowMax qrow kv = (r : EReal) := by
  rw [rowMax, negInf_eq_bot]
  exact fold_max_real Finset.univ Finset.univ_nonempty _ (score_real qrow kv hq hk)

/-- Every weight of real rows is a positive real. -/
theorem weight_pos_real (qrow : Fin 1024 → EReal) (kv : Fin 2048 → Fin 1024 → EReal)
    (hq : ∀ d, ∃ r : ℝ, qrow d = (r : EReal)) (hk : ∀ k d, ∃ r : ℝ, kv k d = (r : EReal)) (k : Fin 2048) :
    ∃ r : ℝ, 0 < r ∧ weight qrow kv k = (r : EReal) := by
  obtain ⟨a, ha⟩ := score_real qrow kv hq hk k
  obtain ⟨m, hm⟩ := rowMax_real qrow kv hq hk
  exact ⟨Real.exp (a - m), Real.exp_pos _, by rw [weight, ha, hm, ← EReal.coe_sub, Ideal.exp_coe]⟩

/-- The total weight of real rows is a positive real. -/
theorem denom_pos_real (qrow : Fin 1024 → EReal) (kv : Fin 2048 → Fin 1024 → EReal)
    (hq : ∀ d, ∃ r : ℝ, qrow d = (r : EReal)) (hk : ∀ k d, ∃ r : ℝ, kv k d = (r : EReal)) :
    ∃ r : ℝ, 0 < r ∧ denom qrow kv = (r : EReal) := by
  choose w hwpos hw using weight_pos_real qrow kv hq hk
  refine ⟨∑ k : Fin 2048, w k, Finset.sum_pos (fun k _ => hwpos k) Finset.univ_nonempty, ?_⟩
  rw [denom, ← coe_finset_sum]
  exact Finset.sum_congr rfl fun k _ => hw k

/-- On real rows the two orders of dividing agree. -/
theorem attnK_eq_attnR (qrow : Fin 1024 → EReal) (kv : Fin 2048 → Fin 1024 → EReal)
    (hq : ∀ d, ∃ r : ℝ, qrow d = (r : EReal)) (hk : ∀ k d, ∃ r : ℝ, kv k d = (r : EReal)) (d : Fin 1024) :
    attnK qrow kv d = attnR qrow kv d := by
  choose w _ hw using weight_pos_real qrow kv hq hk
  choose c hc using fun k => hk k d
  obtain ⟨D, hDpos, hD⟩ := denom_pos_real qrow kv hq hk
  have hD0 : D ≠ 0 := ne_of_gt hDpos
  have hnum : ∑ k : Fin 2048, weight qrow kv k * kv k d = ((∑ k : Fin 2048, w k * c k : ℝ) : EReal) := by
    rw [← coe_finset_sum]
    refine Finset.sum_congr rfl fun k _ => ?_
    rw [hw, hc, EReal.coe_mul]
  have hterm : ∀ k : Fin 2048,
      Ideal.div (weight qrow kv k) (denom qrow kv) * kv k d = ((w k * (1 / D) * c k : ℝ) : EReal) := by
    intro k
    rw [hD, Ideal.div_coe hD0, hw, hc, EReal.coe_mul, EReal.coe_mul]
  have hreal : (∑ k : Fin 2048, w k * c k) * (1 / D) = ∑ k : Fin 2048, w k * (1 / D) * c k := by
    rw [Finset.sum_mul]
    exact Finset.sum_congr rfl fun k _ => by ring
  rw [attnK, attnR, hD, Ideal.div_coe hD0, hnum, ← EReal.coe_mul, hreal, ← coe_finset_sum]
  exact Finset.sum_congr rfl fun k _ => by rw [← hterm k, hD]

end Cert.Attn

end
-- ==== Proof.Finite.lean ====
/-
  What the precondition says, entry by entry: each of the three inputs compares below plus infinity in absolute
  value everywhere, so on the extended reals every entry is a real number.
-/
import proofs.«430863_j16389595201615_3_alg».proof.Defs
import proofs.«430863_j16389595201615_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The word of plus infinity denotes the top of the extended reals. -/
theorem ofBits_inf : Ideal.ofBits .f32 0x7F800000#32 = (⊤ : EReal) := by
  simp [Ideal.ofBits, Ideal.ieee]

/-- One entry: an extended real whose absolute value, the larger of it and its negation, compares strictly below
    plus infinity is a real number; at either infinity the absolute value is the top, which is not below itself. -/
theorem real_of_abs_lt_top (v : EReal)
    (hv : Ideal.cmp .olt (max v (-v)) (Ideal.ofBits .f32 0x7F800000#32) = 1#1) :
    ∃ r : ℝ, v = (r : EReal) := by
  rw [ofBits_inf] at hv
  induction v using EReal.rec with
  | bot => simp [Ideal.cmp] at hv
  | coe r => exact ⟨r, rfl⟩
  | top => simp [Ideal.cmp] at hv

/-- One conjunct, for any shape: if the conjunction over all entries of the bits "|x| < c" is one, where c reads
    plus infinity at every index, then every entry of x is a real number. The result shape has rank zero, hence a
    single index, so every entry of the compared array reduces into it. -/
theorem real_of_all {s : Shape} {axes : List (Fin s.rank)} (x c : FVec Ideal s .f32)
    (hc : ∀ i, c i = Ideal.ofBits .f32 0x7F800000#32)
    (init : S_.Idx → BitVec 1) (hr : s.ReducesTo axes S_) (hu : 0 < S_.numel)
    (e : Host.reduce IntOp.andi (cmpf .olt (Host.absf x) c) init hr hu ValueIdx.ix0 = 1#1) :
    ∀ i, ∃ r : ℝ, x i = (r : EReal) := by
  intro i
  haveI : Subsingleton S_.Idx := ⟨fun a b => funext fun d => d.elim0⟩
  have hi := Host.reduce_andi_all _ init hr hu ValueIdx.ix0 e i
  rw [ValueIdx.cmpf_apply, hc i] at hi
  exact real_of_abs_lt_top (x i) hi

/-- If the printed predicate is all ones at the ideal values, every entry of each input is real. -/
theorem real_of_pre (x0 : FVec Ideal S8x2048x1024 .f32) (x1 : FVec Ideal S1024x1024 .f32) (x2 : FVec Ideal S1024 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  -- the predicate at its one index is a conjunction of three conjunctions over all entries
  have h0 := congrFun h ValueIdx.ix0
  dsimp only [fn] at h0
  obtain ⟨h01, h2⟩ := IntOp.andi_eq_one.1 h0
  obtain ⟨h0', h1⟩ := IntOp.andi_eq_one.1 h01
  -- each broadcast of the rank-0 constant reads the constant at every index
  exact ⟨real_of_all x0 _ (fun _ => rfl) _ _ _ h0', real_of_all x1 _ (fun _ => rfl) _ _ _ h1,
    real_of_all x2 _ (fun _ => rfl) _ _ _ h2⟩

end Cert.Pre_finite_inputs.Finite

end
-- ==== Proof.lean ====
/-
  Self-attention with one shared projection, q = k = v = x·W + bias, no scaling: the kernel against its jnp reference,
  equal over the extended reals under finite inputs.

  The kernel runs two calls.  The first computes the projected rows block by block (1024 rows of x at a time against
  the whole of W, plus the bias).  The second, for each batch and each block of 512 query rows, takes the scores
  against all 2048 rows of the batch, the row maxima, the weights e^(score − max), their totals, the weighted sums of
  the rows, and divides ONCE by the total.  The reference computes the same projected rows, scores, maxima, weights and
  totals over whole arrays, divides each WEIGHT by its row's total, and then takes the weighted sums.

  So entry (b, s, d) of the kernel's result is (Σ_k w_k · q[b,k,d]) / L and of the reference's Σ_k (w_k / L) · q[b,k,d],
  with the same weights w_k and total L.  With finite inputs every projected entry is real, every weight a positive
  real, L a positive real, and division by a nonzero real distributes over the sum: the two agree (`attnK_eq_attnR`).
  This is where the precondition is used; nothing else needs it.

  The frames: the kernel's run (both instances) ends with every unscoped buffer at a known valuation, in which no item
  ever wrote an argument; the reference's frame is its run with the result dropped.  The idealization rewrote nothing, so
  there is nothing to preserve.
-/
import proofs.«430863_j16389595201615_3_alg».proof.Defs
import proofs.«430863_j16389595201615_3_alg».proof.Proof.Gen.Kernel
import proofs.«430863_j16389595201615_3_alg».proof.Proof.Gen.KernelIdeal
import proofs.«430863_j16389595201615_3_alg».proof.Proof.Gen.ReferenceIdeal
import proofs.«430863_j16389595201615_3_alg».proof.Proof.Gen.Pre_finite_inputs
import proofs.«430863_j16389595201615_3_alg».proof.Proof.Gen.ReferenceIdeal.Run
import proofs.«430863_j16389595201615_3_alg».proof.Proof.Gen.ReferenceIdeal.Read
import proofs.«430863_j16389595201615_3_alg».proof.Proof.KHost
import proofs.«430863_j16389595201615_3_alg».proof.Proof.KIResult
import proofs.«430863_j16389595201615_3_alg».proof.Proof.RefRead
import proofs.«430863_j16389595201615_3_alg».proof.Proof.AttnLaw
import proofs.«430863_j16389595201615_3_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Attn

/-! ## The three frames -/

/-- The kernel as printed: its run ends with each argument's buffer at the last valuation, which has it as launched. -/
theorem frame_k : Cert.frame_Kernel := fun m ρ _ =>
  (θ_run Cert.Kernel.defs _ _).mono (fun r h c =>
      ⟨(h c _ (Cert.Kernel.Rgn.mem_uc Cert.Kernel.main_arg0 (by decide))).trans (Cert.Kernel.Rgn.W4_main_arg0 m ρ c),
       (h c _ (Cert.Kernel.Rgn.mem_uc Cert.Kernel.main_arg1 (by decide))).trans (Cert.Kernel.Rgn.W4_main_arg1 m ρ c),
       (h c _ (Cert.Kernel.Rgn.mem_uc Cert.Kernel.main_arg2 (by decide))).trans (Cert.Kernel.Rgn.W4_main_arg2 m ρ c)⟩)
    (Cert.Kernel.Rgn.run_main (F := Bits) m ρ)

/-- The idealized kernel: the same run at the extended reals. -/
theorem frame_ki : Cert.frame_KernelIdeal := fun m ρ _ =>
  (θ_run Cert.KernelIdeal.defs _ _).mono (fun r h c =>
      ⟨(h c _ (Cert.KernelIdeal.Rgn.mem_uc Cert.KernelIdeal.main_arg0 (by decide))).trans (Cert.KernelIdeal.Rgn.W4_main_arg0 m ρ c),
       (h c _ (Cert.KernelIdeal.Rgn.mem_uc Cert.KernelIdeal.main_arg1 (by decide))).trans (Cert.KernelIdeal.Rgn.W4_main_arg1 m ρ c),
       (h c _ (Cert.KernelIdeal.Rgn.mem_uc Cert.KernelIdeal.main_arg2 (by decide))).trans (Cert.KernelIdeal.Rgn.W4_main_arg2 m ρ c)⟩)
    (Cert.KernelIdeal.Rgn.run_main (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The two results are one array -/

/-- With finite inputs, the reference's result term on inputs that agree with the kernel's is the kernel's result
    buffer at the end of its run: entry by entry, the reference's weighted sum of per-weight quotients is the kernel's
    one quotient of the weighted sum, the projected rows being real. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v16 m' c = Cert.KernelIdeal.Rgn.V4 m ρ c Cert.KernelIdeal.main_v4 := by
  obtain ⟨hx, hW, hb⟩ := Cert.Pre_finite_inputs.Finite.real_of_pre _ _ _ (hpre c)
  rw [Cert.ReferenceIdeal.Read.val_main_v16_eq, h0, h1, h2]
  funext i
  obtain ⟨b, s, d, rfl⟩ : ∃ (b : Fin 8) (s : Fin 2048) (d : Fin 1024), i = ix3 b s d := ⟨i 0, i 1, i 2, eq_ix3 i⟩
  rw [Cert.ReferenceIdeal.RefValue.result_apply]
  refine ((attnK_eq_attnR _ _ (fun e => proj_real _ _ _ hx hW hb b s e) (fun k e => proj_real _ _ _ hx hW hb b k e) d).symm).trans ?_
  exact (Cert.KernelIdeal.Rgn.result_apply m ρ c b s d).symm

/-! ## The claims -/

/-- Both programs run; the kernel's result buffer ends at the last valuation's contents, and the reference's result term
    is those contents. -/
theorem algebraic : Cert.algebraic_KernelIdeal_ReferenceIdeal := by
  intro m ρ m' ρ' hpre hagree
  refine ⟨fun c => Cert.KernelIdeal.Rgn.V4 m ρ c Cert.KernelIdeal.main_v4, ?_, ?_⟩
  · exact (θ_run Cert.KernelIdeal.defs _ _).mono (fun r h c =>
      ⟨h c _ (Cert.KernelIdeal.Rgn.mem_uc Cert.KernelIdeal.main_v4 (by decide)),
       (h c _ (Cert.KernelIdeal.Rgn.mem_uc Cert.KernelIdeal.main_arg0 (by decide))).trans (Cert.KernelIdeal.Rgn.W4_main_arg0 m ρ c),
       (h c _ (Cert.KernelIdeal.Rgn.mem_uc Cert.KernelIdeal.main_arg1 (by decide))).trans (Cert.KernelIdeal.Rgn.W4_main_arg1 m ρ c),
       (h c _ (Cert.KernelIdeal.Rgn.mem_uc Cert.KernelIdeal.main_arg2 (by decide))).trans (Cert.KernelIdeal.Rgn.W4_main_arg2 m ρ c)⟩)
      (Cert.KernelIdeal.Rgn.run_main (F := Ideal) m ρ)
  · exact (θ_run Cert.ReferenceIdeal.defs _ _).mono (fun _ h c =>
      ⟨(h c).1.trans (result_eq m ρ m' hpre c (hagree c).1 (hagree c).2.1 (hagree c).2.2), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
